-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩
abbrev S102400 : Shape := ⟨1, ![102400]⟩
abbrev S1x102400 : Shape := ⟨2, ![1, 102400]⟩
abbrev S5x102400 : Shape := ⟨2, ![5, 102400]⟩
abbrev S128x1 : Shape := ⟨2, ![128, 1]⟩
abbrev S5x128 : Shape := ⟨2, ![5, 128]⟩
abbrev S5x1 : Shape := ⟨2, ![5, 1]⟩
abbrev S5x12800 : Shape := ⟨2, ![5, 12800]⟩
abbrev S128x12800 : Shape := ⟨2, ![128, 12800]⟩
abbrev S5x100000 : Shape := ⟨2, ![5, 100000]⟩
abbrev S100000x5 : Shape := ⟨2, ![100000, 5]⟩

abbrev nBuf : Space → Nat
  | .hbm => 47
  | .vmem => 9
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S_, .i32⟩
  | .hbm, ⟨8, _⟩ => ⟨S_, .f32⟩
  | .hbm, ⟨9, _⟩ => ⟨S102400, .f32⟩
  | .hbm, ⟨10, _⟩ => ⟨S102400, .bf16⟩
  | .hbm, ⟨11, _⟩ => ⟨S102400, .f32⟩
  | .hbm, ⟨12, _⟩ => ⟨S102400, .f32⟩
  | .hbm, ⟨13, _⟩ => ⟨S102400, .bf16⟩
  | .hbm, ⟨14, _⟩ => ⟨S_, .bf16⟩
  | .hbm, ⟨15, _⟩ => ⟨S102400, .bf16⟩
  | .hbm, ⟨16, _⟩ => ⟨S1x102400, .bf16⟩
  | .hbm, ⟨17, _⟩ => ⟨S1x102400, .bf16⟩
  | .hbm, ⟨18, _⟩ => ⟨S1x102400, .bf16⟩
  | .hbm, ⟨19, _⟩ => ⟨S1x102400, .bf16⟩
  | .hbm, ⟨20, _⟩ => ⟨S1x102400, .bf16⟩
  | .hbm, ⟨21, _⟩ => ⟨S5x102400, .bf16⟩
  | .hbm, ⟨22, _⟩ => ⟨S128, .f32⟩
  | .hbm, ⟨23, _⟩ => ⟨S128, .bf16⟩
  | .hbm, ⟨24, _⟩ => ⟨S128, .f32⟩
  | .hbm, ⟨25, _⟩ => ⟨S128, .f32⟩
  | .hbm, ⟨26, _⟩ => ⟨S128, .bf16⟩
  | .hbm, ⟨27, _⟩ => ⟨S128, .bf16⟩
  | .hbm, ⟨28, _⟩ => ⟨S128, .f32⟩
  | .hbm, ⟨29, _⟩ => ⟨S128, .f32⟩
  | .hbm, ⟨30, _⟩ => ⟨S128, .bf16⟩
  | .hbm, ⟨31, _⟩ => ⟨S128x1, .bf16⟩
  | .hbm, ⟨32, _⟩ => ⟨S128x1, .bf16⟩
  | .hbm, ⟨33, _⟩ => ⟨S128x1, .bf16⟩
  | .hbm, ⟨34, _⟩ => ⟨S128x1, .bf16⟩
  | .hbm, ⟨35, _⟩ => ⟨S128x1, .bf16⟩
  | .hbm, ⟨36, _⟩ => ⟨S128x5, .bf16⟩
  | .hbm, ⟨37, _⟩ => ⟨S128x128, .f32⟩
  | .hbm, ⟨38, _⟩ => ⟨S128x128, .bf16⟩
  | .hbm, ⟨39, _⟩ => ⟨S128, .bf16⟩
  | .hbm, ⟨40, _⟩ => ⟨S128x1, .bf16⟩
  | .hbm, ⟨41, _⟩ => ⟨S5x128, .f32⟩
  | .hbm, ⟨42, _⟩ => ⟨S5x128, .bf16⟩
  | .hbm, ⟨43, _⟩ => ⟨S5x1, .f32⟩
  | .hbm, ⟨44, _⟩ => ⟨S5x102400, .f32⟩
  | .hbm, ⟨45, _⟩ => ⟨S5x100000, .f32⟩
  | .hbm, ⟨46, _⟩ => ⟨S100000x5, .f32⟩
  | .local _ .vmem, ⟨0, _⟩ => ⟨S5x12800, .bf16⟩
  | .local _ .vmem, ⟨1, _⟩ => ⟨S5x12800, .bf16⟩
  | .local _ .vmem, ⟨2, _⟩ => ⟨S128x5, .bf16⟩
  | .local _ .vmem, ⟨3, _⟩ => ⟨S128x128, .bf16⟩
  | .local _ .vmem, ⟨4, _⟩ => ⟨S128x1, .bf16⟩
  | .local _ .vmem, ⟨5, _⟩ => ⟨S5x128, .bf16⟩
  | .local _ .vmem, ⟨6, _⟩ => ⟨S5x1, .f32⟩
  | .local _ .vmem, ⟨7, _⟩ => ⟨S5x12800, .f32⟩
  | .local _ .vmem, ⟨8, _⟩ => ⟨S5x12800, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x12800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x12800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S100000_S102400_024000 : S100000.Pads (![0] : Fin 1 → Nat) ![2400] ![0] S102400
  h_S_ : 0 < S_.numel
  bitsLt_bf16_f32 : FTy.bits .bf16 < FTy.bits .f32
  bcast_S_S102400 : S_.BroadcastsInDim S102400 (![] : Fin 0 → Fin S102400.rank)
  bcast_S102400_S1x102400_1 : S102400.BroadcastsInDim S1x102400 (![1] : Fin 1 → Fin S1x102400.rank)
  concatenates_S1x102400_S1x102400_S1x102400_S1x102400_S1x102400_S5x102400_d0 : Shape.Concatenates [S1x102400, S1x102400, S1x102400, S1x102400, S1x102400] S5x102400 0
  shapeCasts_S1x128_S128 : S1x128.ShapeCasts S128
  bcast_S128_S128x1_0 : S128.BroadcastsInDim S128x1 (![0] : Fin 1 → Fin S128x1.rank)
  concatenates_S128x1_S128x1_S128x1_S128x1_S128x1_S128x5_d1 : Shape.Concatenates [S128x1, S128x1, S128x1, S128x1, S128x1] S128x5 1
  transposes_S128x128_S128x128_1_0 : S128x128.Transposes [1, 0] S128x128
  shapeCasts_S128_S128x1 : S128.ShapeCasts S128x1
  transposes_S128x5_S5x128_1_0 : S128x5.Transposes [1, 0] S5x128
  shapeCasts_S5_S5x1 : S5.ShapeCasts S5x1
  inb_S5x12800_S5x12800_0_0 : ∀ a, (![0, 0] : Fin 2 → Nat) a + S5x12800.size a ≤ S5x12800.size a
  h_S5x12800 : 0 < S5x12800.numel
  shapeCasts_S5x12800_S5x12800 : S5x12800.ShapeCasts S5x12800
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x12800 : S128x1.Broadcasts S128x12800
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x12800 : S5x1.Broadcasts S5x12800
  slices_S5x102400_S5x100000_0_0 : S5x102400.Slices ![0, 0] S5x100000
  transposes_S5x100000_S100000x5_1_0 : S5x100000.Transposes [1, 0] S100000x5
  dot_S128x5_S5x12800_S128x12800_1_0_0_1_n_n_wf : DotDims.WF S128x5 S5x12800 S128x12800 [1] [0] [0] [1] [] []
  dot_S128x128_S128x12800_S128x12800_1_0_0_1_n_n_wf : DotDims.WF S128x128 S128x12800 S128x12800 [1] [0] [0] [1] [] []
  dot_S5x128_S128x12800_S5x12800_1_0_0_1_n_n_wf : DotDims.WF S5x128 S128x12800 S5x12800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x12800.size a ≤ S5x102400.size a
  hwx0_0 : ∀ i : grid0.Coords, EltTy.bits .bf16 = 32 ∨ (Rect.block (s := S5x102400) S5x12800.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S128x5.size a
  hwx0_1 : ∀ i : grid0.Coords, EltTy.bits .bf16 = 32 ∨ (Rect.block (s := S128x5) S128x5.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .bf16 = 32 ∨ (Rect.block (s := S5x128) S5x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1.size a ≤ S5x1.size a
  hwx0_5 : ∀ i : grid0.Coords, EltTy.bits .f32 = 32 ∨ (Rect.block (s := S5x1) S5x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5x12800.size a ≤ S5x102400.size a
  hwx0_6 : ∀ i : grid0.Coords, EltTy.bits .f32 = 32 ∨ (Rect.block (s := S5x102400) S5x12800.size (cc0_transform_6 i) (hinb0_6 i)).WholeWords (EltTy.packing .f32)

variable [Facts₀]

def dot_S128x5_S5x12800_S128x12800_1_0_0_1_n_n : DotDims S128x5 S5x12800 S128x12800 where
  lhsContracting := [1]
  rhsContracting := [0]
  lhsNonContracting := [0]
  rhsNonContracting := [1]
  lhsBatch := []
  rhsBatch := []
  wf := dot_S128x5_S5x12800_S128x12800_1_0_0_1_n_n_wf
def dot_S128x128_S128x12800_S128x12800_1_0_0_1_n_n : DotDims S128x128 S128x12800 S128x12800 where
  lhsContracting := [1]
  rhsContracting := [0]
  lhsNonContracting := [0]
  rhsNonContracting := [1]
  lhsBatch := []
  rhsBatch := []
  wf := dot_S128x128_S128x12800_S128x12800_1_0_0_1_n_n_wf
def dot_S5x128_S128x12800_S5x12800_1_0_0_1_n_n : DotDims S5x128 S128x12800 S5x12800 where
  lhsContracting := [1]
  rhsContracting := [0]
  lhsNonContracting := [0]
  rhsNonContracting := [1]
  lhsBatch := []
  rhsBatch := []
  wf := dot_S5x128_S128x12800_S5x12800_1_0_0_1_n_n_wf

abbrev win0_0 : Pipeline.Window sig grid0 :=
  Pipeline.Window.ofSpec (Memref.whole main_v11) S5x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S5x12800.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S100000x128 : Shape := ⟨2, ![100000, 128]⟩
abbrev S_ : Shape := ⟨0, ![]⟩
abbrev S100000x5 : Shape := ⟨2, ![100000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x5, .f32⟩
  | .hbm, ⟨23, _⟩ => ⟨S1x5, .f32⟩
  | .hbm, ⟨24, _⟩ => ⟨S100000x5, .f32⟩
  | .hbm, ⟨25, _⟩ => ⟨S100000x5, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.FrameKernel.lean ====
/-
  The frame of `Kernel`: every weakly fair execution of @main terminates without a fault, and the seven argument
  arrays end as they were launched.

  @main is three stretches of host operations (the padding of `t` to 102400 points and its split into a leading
  part and a remainder, the five-row matrix X = [t_hi; t_lo; t_hi; 1; 1], the five-column matrix
  A1 = [w_hi, w_hi, w_lo, b_hi, b_lo], the transposed weights), ONE pipelined region of eight grid points, and a
  slice and a transpose after it. The region-entry contents of the TensorCore's buffers are the fold of the host
  operations before the region over the launch memory; none of those operations writes an argument array, and
  neither do the two after the region, so each argument is read back at its launch contents.

  The body at a grid point loads its six input blocks whole, computes one value `k0_pay1` of them and stores it
  over the whole output block; so after the body the output's staging buffer holds exactly that value of the
  point's input blocks, and every input's buffer holds its block still. That is the proof data of the pipeline;
  the launch theorem for a region continued by host operations then gives the run, whose postcondition names the
  output array after the last write-back and every other buffer after the two closing operations.
-/
import proofs.«144764_g64828236366229_cont_9to1_m_1379_9_alg».proof.Proof.Gen.Kernel.Launch
import proofs.«144764_g64828236366229_cont_9to1_m_1379_9_alg».proof.Proof.Gen.Kernel.Skeleton
import proofs.«144764_g64828236366229_cont_9to1_m_1379_9_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch memory after the host operations before it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The two operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does one after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does one after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does one after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does one after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does one after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does one after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's postcondition from the run's -/

/-- Every argument array is a buffer no window stages; the run's postcondition has it after the two closing
    operations, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

abbrev r0_0 : Rect S5x12800 := Rect.unit (s := S5x12800) ![0, 0] S5x12800.size inb_S5x12800_S5x12800_0_0
abbrev r0_1 : Rect S128x5 := Rect.unit (s := S128x5) ![0, 0] S128x5.size inb_S128x5_S128x5_0_0
abbrev r0_2 : Rect S128x128 := Rect.unit (s := S128x128) ![0, 0] S128x128.size inb_S128x128_S128x128_0_0
abbrev r0_3 : Rect S128x1 := Rect.unit (s := S128x1) ![0, 0] S128x1.size inb_S128x1_S128x1_0_0
abbrev r0_4 : Rect S5x128 := Rect.unit (s := S5x128) ![0, 0] S5x128.size inb_S5x128_S5x128_0_0
abbrev r0_5 : Rect S5x1 := Rect.unit (s := S5x1) ![0, 0] S5x1.size inb_S5x1_S5x1_0_0
abbrev r0_6 : Rect S5x12800 := Rect.unit (s := S5x12800) ![0, 0] S5x12800.size inb_S5x12800_S5x12800_0_0

/-! ## What the body leaves in the output window's buffer -/

/-- The output block after the body: its one store, of the payload of the six loaded input blocks. -/
def out0_6 (x0 : Vec F S5x12800 .bf16) (x1 : Vec F S128x5 .bf16) (x2 : Vec F S128x128 .bf16) (x3 : Vec F S128x1 .bf16) (x4 : Vec F S5x128 .bf16) (x5 : Vec F S5x1 .f32) : Vec F S5x12800 .f32 :=
  View.canon [⟨r0_6, k0_pay1 (View.ld x0 r0_0) (View.ld x1 r0_1) (View.ld x2 r0_2) (View.ld x3 r0_3) (View.ld x4 r0_4) (View.ld x5 r0_5)⟩]

/-- The one store is of the whole block, so it covers it. -/
theorem cover0_6 (p0 : Vec F S5x12800 .f32) (y : S5x12800.Idx) :
    ∃ pc ∈ ([⟨r0_6, p0⟩] : List (View.Piece (Elt F) S5x12800 .f32)), y ∈ pc.1.set :=
  View.cover_of_tiled [⟨r0_6, p0⟩] S5x12800.size (by rfl) y

/-! ## The body's triple -/

set_option maxHeartbeats 1000000 in
/-- The body on whole staging memrefs, the inputs' at contents `xW` and the output's at anything, runs to the
    continuation with the inputs' as they were and the output's at `out0_6` of them. -/
theorem sound_kernel (c : Dev nD) (E : Set ℕ) (i : grid0.Coords) (arg1 : Memref sig .tc .vmem S5x12800 .bf16) (harg1 : arg1.IsWhole) (arg2 : Memref sig .tc .vmem S128x5 .bf16) (harg2 : arg2.IsWhole) (arg3 : Memref sig .tc .vmem S128x128 .bf16) (harg3 : arg3.IsWhole) (arg4 : Memref sig .tc .vmem S128x1 .bf16) (harg4 : arg4.IsWhole) (arg5 : Memref sig .tc .vmem S5x128 .bf16) (harg5 : arg5.IsWhole) (arg6 : Memref sig .tc .vmem S5x1 .f32) (harg6 : arg6.IsWhole) (arg7 : Memref sig .tc .vmem S5x12800 .f32) (harg7 : arg7.IsWhole)
    (x0 : Vec F S5x12800 .bf16) (x1 : Vec F S128x5 .bf16) (x2 : Vec F S128x128 .bf16) (x3 : Vec F S128x1 .bf16) (x4 : Vec F S5x128 .bf16) (x5 : Vec F S5x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the
    output's at `out0_6` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the output array at what the
    proof data give after the last write-back and every buffer no window stages at what the two closing
    operations leave of the region-exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.FrameH

end
-- ==== Proof.FrameKernelIdeal.lean ====
/-
  The frame of `KernelIdeal`: every weakly fair execution of @main terminates without a fault, and the seven argument
  arrays end as they were launched.

  @main is three stretches of host operations (the padding of `t` to 102400 points and its split into a leading
  part and a remainder, the five-row matrix X = [t_hi; t_lo; t_hi; 1; 1], the five-column matrix
  A1 = [w_hi, w_hi, w_lo, b_hi, b_lo], the transposed weights), ONE pipelined region of eight grid points, and a
  slice and a transpose after it. The region-entry contents of the TensorCore's buffers are the fold of the host
  operations before the region over the launch memory; none of those operations writes an argument array, and
  neither do the two after the region, so each argument is read back at its launch contents.

  The body at a grid point loads its six input blocks whole, computes one value `k0_pay1` of them and stores it
  over the whole output block; so after the body the output's staging buffer holds exactly that value of the
  point's input blocks, and every input's buffer holds its block still. That is the proof data of the pipeline;
  the launch theorem for a region continued by host operations then gives the run, whose postcondition names the
  output array after the last write-back and every other buffer after the two closing operations.
-/
import proofs.«144764_g64828236366229_cont_9to1_m_1379_9_alg».proof.Proof.Gen.KernelIdeal.Launch
import proofs.«144764_g64828236366229_cont_9to1_m_1379_9_alg».proof.Proof.Gen.KernelIdeal.Skeleton
import proofs.«144764_g64828236366229_cont_9to1_m_1379_9_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch memory after the host operations before it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The two operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does one after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does one after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does one after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does one after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does one after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does one after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's postcondition from the run's -/

/-- Every argument array is a buffer no window stages; the run's postcondition has it after the two closing
    operations, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

abbrev r0_0 : Rect S5x12800 := Rect.unit (s := S5x12800) ![0, 0] S5x12800.size inb_S5x12800_S5x12800_0_0
abbrev r0_1 : Rect S128x5 := Rect.unit (s := S128x5) ![0, 0] S128x5.size inb_S128x5_S128x5_0_0
abbrev r0_2 : Rect S128x128 := Rect.unit (s := S128x128) ![0, 0] S128x128.size inb_S128x128_S128x128_0_0
abbrev r0_3 : Rect S128x1 := Rect.unit (s := S128x1) ![0, 0] S128x1.size inb_S128x1_S128x1_0_0
abbrev r0_4 : Rect S5x128 := Rect.unit (s := S5x128) ![0, 0] S5x128.size inb_S5x128_S5x128_0_0
abbrev r0_5 : Rect S5x1 := Rect.unit (s := S5x1) ![0, 0] S5x1.size inb_S5x1_S5x1_0_0
abbrev r0_6 : Rect S5x12800 := Rect.unit (s := S5x12800) ![0, 0] S5x12800.size inb_S5x12800_S5x12800_0_0

/-! ## What the body leaves in the output window's buffer -/

/-- The output block after the body: its one store, of the payload of the six loaded input blocks. -/
def out0_6 (x0 : Vec F S5x12800 .bf16) (x1 : Vec F S128x5 .bf16) (x2 : Vec F S128x128 .bf16) (x3 : Vec F S128x1 .bf16) (x4 : Vec F S5x128 .bf16) (x5 : Vec F S5x1 .f32) : Vec F S5x12800 .f32 :=
  View.canon [⟨r0_6, k0_pay1 (View.ld x0 r0_0) (View.ld x1 r0_1) (View.ld x2 r0_2) (View.ld x3 r0_3) (View.ld x4 r0_4) (View.ld x5 r0_5)⟩]

/-- The one store is of the whole block, so it covers it. -/
theorem cover0_6 (p0 : Vec F S5x12800 .f32) (y : S5x12800.Idx) :
    ∃ pc ∈ ([⟨r0_6, p0⟩] : List (View.Piece (Elt F) S5x12800 .f32)), y ∈ pc.1.set :=
  View.cover_of_tiled [⟨r0_6, p0⟩] S5x12800.size (by rfl) y

/-! ## The body's triple -/

set_option maxHeartbeats 1000000 in
/-- The body on whole staging memrefs, the inputs' at contents `xW` and the output's at anything, runs to the
    continuation with the inputs' as they were and the output's at `out0_6` of them. -/
theorem sound_kernel (c : Dev nD) (E : Set ℕ) (i : grid0.Coords) (arg1 : Memref sig .tc .vmem S5x12800 .bf16) (harg1 : arg1.IsWhole) (arg2 : Memref sig .tc .vmem S128x5 .bf16) (harg2 : arg2.IsWhole) (arg3 : Memref sig .tc .vmem S128x128 .bf16) (harg3 : arg3.IsWhole) (arg4 : Memref sig .tc .vmem S128x1 .bf16) (harg4 : arg4.IsWhole) (arg5 : Memref sig .tc .vmem S5x128 .bf16) (harg5 : arg5.IsWhole) (arg6 : Memref sig .tc .vmem S5x1 .f32) (harg6 : arg6.IsWhole) (arg7 : Memref sig .tc .vmem S5x12800 .f32) (harg7 : arg7.IsWhole)
    (x0 : Vec F S5x12800 .bf16) (x1 : Vec F S128x5 .bf16) (x2 : Vec F S128x128 .bf16) (x3 : Vec F S128x1 .bf16) (x4 : Vec F S5x128 .bf16) (x5 : Vec F S5x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the
    output's at `out0_6` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the output array at what the
    proof data give after the last write-back and every buffer no window stages at what the two closing
    operations leave of the region-exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.FrameH

end
-- ==== Proof.Payload.lean ====
/-
  The kernel body's arithmetic read at one entry of the output block: with the rectification max(·, 0) and the three
  matrix products into zero accumulators written as sums over the contracted coordinate,

    out e p = Σ j, w3 e j · max (Σ k, w2 j k · max (Σ q, a1 k q · x q p) 0 + b2 j) 0 + b3 e

  (points along the columns p; a change of float format is the identity on the extended reals).
-/
import proofs.«144764_g64828236366229_cont_9to1_m_1379_9_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The bf16 zero word denotes the extended real `0`. -/
theorem ofBits_zero_bf16 : Ideal.ofBits .bf16 0x0000#16 = 0 := by simp [Ideal.ofBits, Ideal.ieee]

/-! ## The three products' operand indices, axis by axis -/

theorem lhs_mm1_0 (i : S128x12800.Idx) (q : dot_S128x5_S5x12800_S128x12800_1_0_0_1_n_n.contr.Idx) :
    (dot_S128x5_S5x12800_S128x12800_1_0_0_1_n_n.lhsIdx i q 0).val = (i 0).val := by
  unfold DotDims.lhsIdx
  rw [dif_neg (show ¬(0 : Fin S128x5.rank) ∈ dot_S128x5_S5x12800_S128x12800_1_0_0_1_n_n.lhsBatch by decide), dif_pos (show (0 : Fin S128x5.rank) ∈ dot_S128x5_S5x12800_S128x12800_1_0_0_1_n_n.lhsNonContracting by decide)]
  rfl
theorem lhs_mm1_1 (i : S128x12800.Idx) (q : dot_S128x5_S5x12800_S128x12800_1_0_0_1_n_n.contr.Idx) :
    (dot_S128x5_S5x12800_S128x12800_1_0_0_1_n_n.lhsIdx i q 1).val = (q ⟨0, by decide⟩).val :=
  dot_S128x5_S5x12800_S128x12800_1_0_0_1_n_n.lhsIdx_val_of_single rfl i q
theorem rhs_mm1_0 (i : S128x12800.Idx) (q : dot_S128x5_S5x12800_S128x12800_1_0_0_1_n_n.contr.Idx) :
    (dot_S128x5_S5x12800_S128x12800_1_0_0_1_n_n.rhsIdx i q 0).val = (q ⟨0, by decide⟩).val :=
  dot_S128x5_S5x12800_S128x12800_1_0_0_1_n_n.rhsIdx_val_of_single rfl i q
theorem rhs_mm1_1 (i : S128x12800.Idx) (q : dot_S128x5_S5x12800_S128x12800_1_0_0_1_n_n.contr.Idx) :
    (dot_S128x5_S5x12800_S128x12800_1_0_0_1_n_n.rhsIdx i q 1).val = (i 1).val := by
  unfold DotDims.rhsIdx
  rw [dif_neg (show ¬(1 : Fin S5x12800.rank) ∈ dot_S128x5_S5x12800_S128x12800_1_0_0_1_n_n.rhsBatch by decide), dif_pos (show (1 : Fin S5x12800.rank) ∈ dot_S128x5_S5x12800_S128x12800_1_0_0_1_n_n.rhsNonContracting by decide)]
  rfl

theorem lhs_mm2_0 (i : S128x12800.Idx) (q : dot_S128x128_S128x12800_S128x12800_1_0_0_1_n_n.contr.Idx) :
    (dot_S128x128_S128x12800_S128x12800_1_0_0_1_n_n.lhsIdx i q 0).val = (i 0).val := by
  unfold DotDims.lhsIdx
  rw [dif_neg (show ¬(0 : Fin S128x128.rank) ∈ dot_S128x128_S128x12800_S128x12800_1_0_0_1_n_n.lhsBatch by decide), dif_pos (show (0 : Fin S128x128.rank) ∈ dot_S128x128_S128x12800_S128x12800_1_0_0_1_n_n.lhsNonContracting by decide)]
  rfl
theorem lhs_mm2_1 (i : S128x12800.Idx) (q : dot_S128x128_S128x12800_S128x12800_1_0_0_1_n_n.contr.Idx) :
    (dot_S128x128_S128x12800_S128x12800_1_0_0_1_n_n.lhsIdx i q 1).val = (q ⟨0, by decide⟩).val :=
  dot_S128x128_S128x12800_S128x12800_1_0_0_1_n_n.lhsIdx_val_of_single rfl i q
theorem rhs_mm2_0 (i : S128x12800.Idx) (q : dot_S128x128_S128x12800_S128x12800_1_0_0_1_n_n.contr.Idx) :
    (dot_S128x128_S128x12800_S128x12800_1_0_0_1_n_n.rhsIdx i q 0).val = (q ⟨0, by decide⟩).val :=
  dot_S128x128_S128x12800_S128x12800_1_0_0_1_n_n.rhsIdx_val_of_single rfl i q
theorem rhs_mm2_1 (i : S128x12800.Idx) (q : dot_S128x128_S128x12800_S128x12800_1_0_0_1_n_n.contr.Idx) :
    (dot_S128x128_S128x12800_S128x12800_1_0_0_1_n_n.rhsIdx i q 1).val = (i 1).val := by
  unfold DotDims.rhsIdx
  rw [dif_neg (show ¬(1 : Fin S128x12800.rank) ∈ dot_S128x128_S128x12800_S128x12800_1_0_0_1_n_n.rhsBatch by decide), dif_pos (show (1 : Fin S128x12800.rank) ∈ dot_S128x128_S128x12800_S128x12800_1_0_0_1_n_n.rhsNonContracting by decide)]
  rfl

theorem lhs_mm3_0 (i : S5x12800.Idx) (q : dot_S5x128_S128x12800_S5x12800_1_0_0_1_n_n.contr.Idx) :
    (dot_S5x128_S128x12800_S5x12800_1_0_0_1_n_n.lhsIdx i q 0).val = (i 0).val := by
  unfold DotDims.lhsIdx
  rw [dif_neg (show ¬(0 : Fin S5x128.rank) ∈ dot_S5x128_S128x12800_S5x12800_1_0_0_1_n_n.lhsBatch by decide), dif_pos (show (0 : Fin S5x128.rank) ∈ dot_S5x128_S128x12800_S5x12800_1_0_0_1_n_n.lhsNonContracting by decide)]
  rfl
theorem lhs_mm3_1 (i : S5x12800.Idx) (q : dot_S5x128_S128x12800_S5x12800_1_0_0_1_n_n.contr.Idx) :
    (dot_S5x128_S128x12800_S5x12800_1_0_0_1_n_n.lhsIdx i q 1).val = (q ⟨0, by decide⟩).val :=
  dot_S5x128_S128x12800_S5x12800_1_0_0_1_n_n.lhsIdx_val_of_single rfl i q
theorem rhs_mm3_0 (i : S5x12800.Idx) (q : dot_S5x128_S128x12800_S5x12800_1_0_0_1_n_n.contr.Idx) :
    (dot_S5x128_S128x12800_S5x12800_1_0_0_1_n_n.rhsIdx i q 0).val = (q ⟨0, by decide⟩).val :=
  dot_S5x128_S128x12800_S5x12800_1_0_0_1_n_n.rhsIdx_val_of_single rfl i q
theorem rhs_mm3_1 (i : S5x12800.Idx) (q : dot_S5x128_S128x12800_S5x12800_1_0_0_1_n_n.contr.Idx) :
    (dot_S5x128_S128x12800_S5x12800_1_0_0_1_n_n.rhsIdx i q 1).val = (i 1).val := by
  unfold DotDims.rhsIdx
  rw [dif_neg (show ¬(1 : Fin S128x12800.rank) ∈ dot_S5x128_S128x12800_S5x12800_1_0_0_1_n_n.rhsBatch by decide), dif_pos (show (1 : Fin S128x12800.rank) ∈ dot_S5x128_S128x12800_S5x12800_1_0_0_1_n_n.rhsNonContracting by decide)]
  rfl

/-! ## Each product into the zero accumulator, read at an index, is the sum over the contracted coordinate -/

/-- The first layer's product: [128,5] by [5,12800]. -/
theorem mm1_apply (l : FVec Ideal S128x5 .bf16) (r : FVec Ideal S5x12800 .bf16) (j : Fin 128) (p : Fin 12800) :
    matmul (F := Ideal) dot_S128x5_S5x12800_S128x12800_1_0_0_1_n_n none l r (constant (F := Ideal) S128x12800 .f32 0x00000000#32) (ix2 j p)
      = ∑ q : Fin 5, l (ix2 j q) * r (ix2 q p) := by
  show FloatOps.matmul dot_S128x5_S5x12800_S128x12800_1_0_0_1_n_n none l r (constant (F := Ideal) S128x12800 .f32 0x00000000#32) (ix2 j p) = _
  rw [Ideal.matmul_constant_zero_apply, ← Equiv.sum_comp (contrEquiv1 dot_S128x5_S5x12800_S128x12800_1_0_0_1_n_n 5 rfl rfl).symm]
  refine Finset.sum_congr rfl fun k _ => ?_
  have hk := contrEquiv1_symm_val dot_S128x5_S5x12800_S128x12800_1_0_0_1_n_n 5 rfl rfl k
  have el : dot_S128x5_S5x12800_S128x12800_1_0_0_1_n_n.lhsIdx (ix2 j p) ((contrEquiv1 dot_S128x5_S5x12800_S128x12800_1_0_0_1_n_n 5 rfl rfl).symm k) = ix2 j k := funext fun a => Fin.ext (by
    match a with
    | ⟨0, _⟩ => exact lhs_mm1_0 _ _
    | ⟨1, _⟩ => exact (lhs_mm1_1 _ _).trans hk)
  have er : dot_S128x5_S5x12800_S128x12800_1_0_0_1_n_n.rhsIdx (ix2 j p) ((contrEquiv1 dot_S128x5_S5x12800_S128x12800_1_0_0_1_n_n 5 rfl rfl).symm k) = ix2 k p := funext fun a => Fin.ext (by
    match a with
    | ⟨0, _⟩ => exact (rhs_mm1_0 _ _).trans hk
    | ⟨1, _⟩ => exact rhs_mm1_1 _ _)
  rw [el, er]

/-- The second layer's product: [128,128] by [128,12800]. -/
theorem mm2_apply (l : FVec Ideal S128x128 .bf16) (r : FVec Ideal S128x12800 .bf16) (j : Fin 128) (p : Fin 12800) :
    matmul (F := Ideal) dot_S128x128_S128x12800_S128x12800_1_0_0_1_n_n none l r (constant (F := Ideal) S128x12800 .f32 0x00000000#32) (ix2 j p)
      = ∑ q : Fin 128, l (ix2 j q) * r (ix2 q p) := by
  show FloatOps.matmul dot_S128x128_S128x12800_S128x12800_1_0_0_1_n_n none l r (constant (F := Ideal) S128x12800 .f32 0x00000000#32) (ix2 j p) = _
  rw [Ideal.matmul_constant_zero_apply, ← Equiv.sum_comp (contrEquiv1 dot_S128x128_S128x12800_S128x12800_1_0_0_1_n_n 128 rfl rfl).symm]
  refine Finset.sum_congr rfl fun k _ => ?_
  have hk := contrEquiv1_symm_val dot_S128x128_S128x12800_S128x12800_1_0_0_1_n_n 128 rfl rfl k
  have el : dot_S128x128_S128x12800_S128x12800_1_0_0_1_n_n.lhsIdx (ix2 j p) ((contrEquiv1 dot_S128x128_S128x12800_S128x12800_1_0_0_1_n_n 128 rfl rfl).symm k) = ix2 j k := funext fun a => Fin.ext (by
    match a with
    | ⟨0, _⟩ => exact lhs_mm2_0 _ _
    | ⟨1, _⟩ => exact (lhs_mm2_1 _ _).trans hk)
  have er : dot_S128x128_S128x12800_S128x12800_1_0_0_1_n_n.rhsIdx (ix2 j p) ((contrEquiv1 dot_S128x128_S128x12800_S128x12800_1_0_0_1_n_n 128 rfl rfl).symm k) = ix2 k p := funext fun a => Fin.ext (by
    match a with
    | ⟨0, _⟩ => exact (rhs_mm2_0 _ _).trans hk
    | ⟨1, _⟩ => exact rhs_mm2_1 _ _)
  rw [el, er]

/-- The last layer's product: [5,128] by [128,12800]. -/
theorem mm3_apply (l : FVec Ideal S5x128 .bf16) (r : FVec Ideal S128x12800 .bf16) (j : Fin 5) (p : Fin 12800) :
    matmul (F := Ideal) dot_S5x128_S128x12800_S5x12800_1_0_0_1_n_n none l r (constant (F := Ideal) S5x12800 .f32 0x00000000#32) (ix2 j p)
      = ∑ q : Fin 128, l (ix2 j q) * r (ix2 q p) := by
  show FloatOps.matmul dot_S5x128_S128x12800_S5x12800_1_0_0_1_n_n none l r (constant (F := Ideal) S5x12800 .f32 0x00000000#32) (ix2 j p) = _
  rw [Ideal.matmul_constant_zero_apply, ← Equiv.sum_comp (contrEquiv1 dot_S5x128_S128x12800_S5x12800_1_0_0_1_n_n 128 rfl rfl).symm]
  refine Finset.sum_congr rfl fun k _ => ?_
  have hk := contrEquiv1_symm_val dot_S5x128_S128x12800_S5x12800_1_0_0_1_n_n 128 rfl rfl k
  have el : dot_S5x128_S128x12800_S5x12800_1_0_0_1_n_n.lhsIdx (ix2 j p) ((contrEquiv1 dot_S5x128_S128x12800_S5x12800_1_0_0_1_n_n 128 rfl rfl).symm k) = ix2 j k := funext fun a => Fin.ext (by
    match a with
    | ⟨0, _⟩ => exact lhs_mm3_0 _ _
    | ⟨1, _⟩ => exact (lhs_mm3_1 _ _).trans hk)
  have er : dot_S5x128_S128x12800_S5x12800_1_0_0_1_n_n.rhsIdx (ix2 j p) ((contrEquiv1 dot_S5x128_S128x12800_S5x12800_1_0_0_1_n_n 128 rfl rfl).symm k) = ix2 k p := funext fun a => Fin.ext (by
    match a with
    | ⟨0, _⟩ => exact (rhs_mm3_0 _ _).trans hk
    | ⟨1, _⟩ => exact rhs_mm3_1 _ _)
  rw [el, er]

/-- The kernel body's arithmetic read at an output index: three nested sums with two `max · 0`. -/
theorem pay_apply (x0 : Vec Ideal S5x12800 .bf16) (x1 : Vec Ideal S128x5 .bf16) (x2 : Vec Ideal S128x128 .bf16)
    (x3 : Vec Ideal S128x1 .bf16) (x4 : Vec Ideal S5x128 .bf16) (x5 : Vec Ideal S5x1 .f32) (e : Fin 5) (p : Fin 12800) :
    k0_pay1 (F := Ideal) x0 x1 x2 x3 x4 x5 (ix2 e p) =
      (∑ j : Fin 128, x4 (ix2 e j) * max ((∑ k : Fin 128, x2 (ix2 j k) * max (∑ q : Fin 5, x1 (ix2 k q) * x0 (ix2 q p)) 0) + x3 (ix2 j 0)) 0) + x5 (ix2 e 0) := by
  unfold k0_pay1
  simp only [shapeCast_self]
  refine (addf_apply _ _ _).trans ?_
  refine congrArg₂ (· + ·) ?_ ?_
  · refine (mm3_apply _ _ e p).trans ?_
    refine Finset.sum_congr rfl fun j _ => ?_
    refine congrArg (x4 (ix2 e j) * ·) ?_
    refine (maximumf_apply _ _ _).trans ?_
    refine congrArg₂ max ?_ ?_
    · refine (addf_apply _ _ _).trans ?_
      refine congrArg₂ (· + ·) ?_ ?_
      · refine (truncf_apply (ψ := .bf16) _ bitsLt_bf16_f32 _).trans ?_
        refine (mm2_apply _ _ j p).trans ?_
        refine Finset.sum_congr rfl fun k _ => ?_
        refine congrArg (x2 (ix2 j k) * ·) ?_
        refine (maximumf_apply _ _ _).trans ?_
        refine congrArg₂ max ?_ ?_
        · refine (truncf_apply (ψ := .bf16) _ bitsLt_bf16_f32 _).trans ?_
          exact mm1_apply _ _ k p
        · exact ofBits_zero_bf16
      · exact broadcastTo_apply x3 broadcasts_S128x1_S128x12800 (ix2 j p) (ix2 j 0) (fun a => match a with
          | ⟨0, _⟩ => by show j.val = if (128 : Nat) = 1 then 0 else j.val; rw [if_neg (by decide)]
          | ⟨1, _⟩ => by show 0 = if (1 : Nat) = 1 then 0 else p.val; rw [if_pos rfl])
    · exact ofBits_zero_bf16
  · exact broadcastTo_apply x5 broadcasts_S5x1_S5x12800 (ix2 e p) (ix2 e 0) (fun a => match a with
      | ⟨0, _⟩ => by show e.val = if (5 : Nat) = 1 then 0 else e.val; rw [if_neg (by decide)]
      | ⟨1, _⟩ => by show 0 = if (1 : Nat) = 1 then 0 else p.val; rw [if_pos rfl])

end Cert.KernelIdeal.Payload

end
-- ==== Proof.EntryDefs.lean ====
/-
  Names for the arrays the value argument speaks of: the seven argument arrays as launched, the six arrays the
  region's windows read as the region finds them, and the constant that fills the two bias rows.
-/
import proofs.«144764_g64828236366229_cont_9to1_m_1379_9_alg».proof.Proof.FrameKernelIdeal
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Cert.KernelIdeal.FrameH Idealize.ShloMosaic Idealize.ShloMosaic.TcCoe
open Idealize.ShloMosaic.ValueIdx Idealize.SL.Sem

variable (m : (ℓ : Loc nD τ sig) → Buf (Elt Ideal) ℓ) (c : Dev nD)

/-- The argument arrays as launched, at their literal types. -/
abbrev a0 : FVec Ideal S100000 .f32 := m ((c : Thread nD τ).loc main_arg0)
abbrev a1 : FVec Ideal S1x128 .f32 := m ((c : Thread nD τ).loc main_arg1)
abbrev a2 : FVec Ideal S128 .f32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x5 .f32 := m ((c : Thread nD τ).loc main_arg5)
abbrev a6 : FVec Ideal S5 .f32 := m ((c : Thread nD τ).loc main_arg6)

/-- The six arrays the region's windows stage, as the region finds them. -/
abbrev X : FVec Ideal S5x102400 .bf16 := V m c main_v11
abbrev A1 : FVec Ideal S128x5 .bf16 := V m c main_v26
abbrev W2t : FVec Ideal S128x128 .bf16 := V m c main_v28
abbrev B2c : FVec Ideal S128x1 .bf16 := V m c main_v30
abbrev W3t : FVec Ideal S5x128 .bf16 := V m c main_v32
abbrev B3c : FVec Ideal S5x1 .f32 := V m c main_v33

/-- The constant the bias rows of X are filled with. -/
def one : EReal := Ideal.ofBits .bf16 0x3F80#16

end Cert.KernelIdeal.Entry

end
-- ==== Proof.EntryX.lean ====
/-
  The five-row matrix X = [t_hi; t_lo; t_hi; 1; 1] in terms of the scalars: at a point n below 100000 the padded
  vector reads t n, the leading part is t n itself (a change of format is the identity on the extended reals), the
  remainder is t n - t n (not simplified: it is zero only at a real entry), and the last two rows are the constant one.
-/
import proofs.«144764_g64828236366229_cont_9to1_m_1379_9_alg».proof.Proof.EntryDefs
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.KernelIdeal.Entry

open Cert.KernelIdeal Cert.KernelIdeal.Gen Cert.KernelIdeal.FrameH Idealize.ShloMosaic Idealize.ShloMosaic.TcCoe
open Idealize.ShloMosaic.ValueIdx Idealize.SL.Sem

variable (m : (ℓ : Loc nD τ sig) → Buf (Elt Ideal) ℓ) (c : Dev nD)

theorem one_eq : one = 1 := by
  unfold one
  exact Ideal.ofBits_one_bf16

/-! ## X as a term of the arguments

The points t are padded from 100000 to 102400 entries; t_hi is the padded vector in the narrow format, t_lo the
remainder t - t_hi in the narrow format; each is laid as one row, and two more rows hold the constant. X is the five
rows stacked: t_hi, t_lo, t_hi, 1, 1. -/

/-- The points padded to 102400 entries. -/
def Xpad : FVec Ideal S102400 .f32 :=
  pad S102400 ![0] ![2400] ![0] (a0 m c) (sitofp .f32 (constantI S_ 32 0#32)) pads_S100000_S102400_024000 h_S_
/-- The row of leading parts. -/
def XrowHi : FVec Ideal S1x102400 .bf16 :=
  broadcastInDim S1x102400 ![1] bcast_S102400_S1x102400_1 (truncf .bf16 (Xpad m c) bitsLt_bf16_f32)
/-- The row of remainders. -/
def XrowLo : FVec Ideal S1x102400 .bf16 :=
  broadcastInDim S1x102400 ![1] bcast_S102400_S1x102400_1
    (truncf .bf16 (subf (Xpad m c) (extf .f32 (truncf .bf16 (Xpad m c) bitsLt_bf16_f32) bitsLt_bf16_f32)) bitsLt_bf16_f32)
/-- The row of the constant. -/
def XrowOne : FVec Ideal S1x102400 .bf16 :=
  broadcastInDim S1x102400 ![1] bcast_S102400_S1x102400_1
    (broadcastInDim S102400 ![] bcast_S_S102400 (constant (F := Ideal) S_ .bf16 0x3F80#16))

open StableHlo in
/-- Each operation's result at its own buffer is its function's value, and at another buffer what was there. -/
local macro "results_more" : tactic =>
  `(tactic| (repeat (first
               | rw [nullary_result] | rw [unary_result] | rw [binary_result]
               | (rw [nullary_result_ne]; rotate_left; decide)
               | (rw [unary_result_ne]; rotate_left; decide)
               | (rw [binary_result_ne]; rotate_left; decide))))

/-- The five rows, in order. -/
abbrev Xrows : List ((s : Shape) × (s.Idx → Ideal .bf16)) :=
  [⟨S1x102400, XrowHi m c⟩, ⟨S1x102400, XrowLo m c⟩, ⟨S1x102400, XrowHi m c⟩, ⟨S1x102400, XrowOne⟩, ⟨S1x102400, XrowOne⟩]

theorem X_eq : X m c = concatenate S5x102400 0 (Xrows m c)
    concatenates_S1x102400_S1x102400_S1x102400_S1x102400_S1x102400_S5x102400_d0 := by
  dsimp only [X, V, V0]
  simp only [hostOps0, hostOps0_1, hostOps0_2, List.flatten_cons, List.flatten_nil, List.append_nil, List.cons_append, List.nil_append]
  after_results
  dsimp only [Matrix.cons_val]
  results_more
  simp only [StableHlo.TRef.ofBuf, StableHlo.TRef.toBuf, cast_eq]
  rfl

/-! ## The rows at a point below 100000 -/

/-- The padded vector at a point of the operand is the operand there. -/
theorem Xpad_apply (n : Fin 100000) (h : n.val < 102400) : Xpad m c (ix1 (⟨n.val, h⟩ : Fin 102400)) = a0 m c (ix1 n) := by
  unfold Xpad
  exact pad_apply_of_inside _ _ _ _ _ pads_S100000_S102400_024000 h_S_ (ix1 (⟨n.val, h⟩ : Fin 102400)) (ix1 n) (fun a => match a with
    | ⟨0, _⟩ => by show n.val = 0 + n.val * (0 + 1); omega)

theorem XrowHi_apply (n : Fin 100000) (h : n.val < 102400) :
    XrowHi m c (ix2 (0 : Fin 1) (⟨n.val, h⟩ : Fin 102400)) = a0 m c (ix1 n) := by
  unfold XrowHi
  refine (broadcastInDim_apply _ bcast_S102400_S1x102400_1 _ (ix2 (0 : Fin 1) (⟨n.val, h⟩ : Fin 102400)) (ix1 (⟨n.val, h⟩ : Fin 102400)) (fun a => match a with
    | ⟨0, _⟩ => by show n.val = if (102400 : Nat) = 1 then 0 else n.val; rw [if_neg (by decide)])).trans ?_
  rw [truncf_apply]
  exact Xpad_apply m c n h

theorem XrowLo_apply (n : Fin 100000) (h : n.val < 102400) :
    XrowLo m c (ix2 (0 : Fin 1) (⟨n.val, h⟩ : Fin 102400)) = a0 m c (ix1 n) - a0 m c (ix1 n) := by
  unfold XrowLo
  refine (broadcastInDim_apply _ bcast_S102400_S1x102400_1 _ (ix2 (0 : Fin 1) (⟨n.val, h⟩ : Fin 102400)) (ix1 (⟨n.val, h⟩ : Fin 102400)) (fun a => match a with
    | ⟨0, _⟩ => by show n.val = if (102400 : Nat) = 1 then 0 else n.val; rw [if_neg (by decide)])).trans ?_
  rw [truncf_apply, subf_apply, extf_apply, truncf_apply, Xpad_apply m c n h]

theorem XrowOne_apply (j : S1x102400.Idx) : XrowOne j = one := by
  unfold XrowOne one
  refine (broadcastInDim_apply _ bcast_S102400_S1x102400_1 _ j (ix1 (j 1)) (fun a => match a with
    | ⟨0, _⟩ => by show (j 1).val = if (102400 : Nat) = 1 then 0 else (j 1).val; rw [if_neg (by decide)])).trans ?_
  rw [broadcastInDim_scalar_apply, constant_apply]

/-! Row `q` of X at a point `n` below 100000 (the padding is never read here). -/
theorem X_0 (n : Fin 100000) (h : n.val < 102400) : X m c (ix2 (0 : Fin 5) (⟨n.val, h⟩ : Fin 102400)) = a0 m c (ix1 n) := by
  rw [X_eq]
  refine (concatenate_apply_piece (t := S5x102400) 0 (Xrows m c) concatenates_S1x102400_S1x102400_S1x102400_S1x102400_S1x102400_S5x102400_d0
    (ix2 (0 : Fin 5) (⟨n.val, h⟩ : Fin 102400)) 0 (by show (0 : Nat) < 5; omega) S1x102400 (XrowHi m c) rfl rfl 0 rfl
    (ix2 (0 : Fin 1) (⟨n.val, h⟩ : Fin 102400)) (fun b => match b with
      | ⟨0, _⟩ => fun hb => absurd rfl hb
      | ⟨1, _⟩ => fun _ => rfl) rfl).trans ?_
  exact XrowHi_apply m c n h
theorem X_1 (n : Fin 100000) (h : n.val < 102400) : X m c (ix2 (1 : Fin 5) (⟨n.val, h⟩ : Fin 102400)) = a0 m c (ix1 n) - a0 m c (ix1 n) := by
  rw [X_eq]
  refine (concatenate_apply_piece (t := S5x102400) 0 (Xrows m c) concatenates_S1x102400_S1x102400_S1x102400_S1x102400_S1x102400_S5x102400_d0
    (ix2 (1 : Fin 5) (⟨n.val, h⟩ : Fin 102400)) 1 (by show (1 : Nat) < 5; omega) S1x102400 (XrowLo m c) rfl rfl 1 rfl
    (ix2 (0 : Fin 1) (⟨n.val, h⟩ : Fin 102400)) (fun b => match b with
      | ⟨0, _⟩ => fun hb => absurd rfl hb
      | ⟨1, _⟩ => fun _ => rfl) rfl).trans ?_
  exact XrowLo_apply m c n h
theorem X_2 (n : Fin 100000) (h : n.val < 102400) : X m c (ix2 (2 : Fin 5) (⟨n.val, h⟩ : Fin 102400)) = a0 m c (ix1 n) := by
  rw [X_eq]
  refine (concatenate_apply_piece (t := S5x102400) 0 (Xrows m c) concatenates_S1x102400_S1x102400_S1x102400_S1x102400_S1x102400_S5x102400_d0
    (ix2 (2 : Fin 5) (⟨n.val, h⟩ : Fin 102400)) 2 (by show (2 : Nat) < 5; omega) S1x102400 (XrowHi m c) rfl rfl 2 rfl
    (ix2 (0 : Fin 1) (⟨n.val, h⟩ : Fin 102400)) (fun b => match b with
      | ⟨0, _⟩ => fun hb => absurd rfl hb
      | ⟨1, _⟩ => fun _ => rfl) rfl).trans ?_
  exact XrowHi_apply m c n h
theorem X_3 (n : Fin 100000) (h : n.val < 102400) : X m c (ix2 (3 : Fin 5) (⟨n.val, h⟩ : Fin 102400)) = one := by
  rw [X_eq]
  refine (concatenate_apply_piece (t := S5x102400) 0 (Xrows m c) concatenates_S1x102400_S1x102400_S1x102400_S1x102400_S1x102400_S5x102400_d0
    (ix2 (3 : Fin 5) (⟨n.val, h⟩ : Fin 102400)) 3 (by show (3 : Nat) < 5; omega) S1x102400 XrowOne rfl rfl 3 rfl
    (ix2 (0 : Fin 1) (⟨n.val, h⟩ : Fin 102400)) (fun b => match b with
      | ⟨0, _⟩ => fun hb => absurd rfl hb
      | ⟨1, _⟩ => fun _ => rfl) rfl).trans ?_
  exact XrowOne_apply _
theorem X_4 (n : Fin 100000) (h : n.val < 102400) : X m c (ix2 (4 : Fin 5) (⟨n.val, h⟩ : Fin 102400)) = one := by
  rw [X_eq]
  refine (concatenate_apply_piece (t := S5x102400) 0 (Xrows m c) concatenates_S1x102400_S1x102400_S1x102400_S1x102400_S1x102400_S5x102400_d0
    (ix2 (4 : Fin 5) (⟨n.val, h⟩ : Fin 102400)) 4 (by show (4 : Nat) < 5; omega) S1x102400 XrowOne rfl rfl 4 rfl
    (ix2 (0 : Fin 1) (⟨n.val, h⟩ : Fin 102400)) (fun b => match b with
      | ⟨0, _⟩ => fun hb => absurd rfl hb
      | ⟨1, _⟩ => fun _ => rfl) rfl).trans ?_
  exact XrowOne_apply _

end Cert.KernelIdeal.Entry

end
-- ==== Proof.EntryW.lean ====
/-
  The weight arrays the region reads, in terms of the arguments: A1 = [w_hi, w_hi, w_lo, b_hi, b_lo] column by column
  (the leading part of a vector is the vector itself on the extended reals, the remainder is x - x, kept as it is),
  the transposes of W2 and W3, and the biases b2 and b3 as one-column matrices.
-/
import proofs.«144764_g64828236366229_cont_9to1_m_1379_9_alg».proof.Proof.EntryDefs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Cert.KernelIdeal.FrameH Idealize.ShloMosaic Idealize.ShloMosaic.TcCoe
open Idealize.ShloMosaic.ValueIdx Idealize.SL.Sem

variable (m : (ℓ : Loc nD τ sig) → Buf (Elt Ideal) ℓ) (c : Dev nD)

/-- An operation of five literal operands: its result with each operand's contents at its own reference. -/
theorem nary5_result {Val : EltTy → Type} {x a b d e y : Ref sig .tc}
    (f : ((k : Fin 5) → ((![x, a, b, d, e] : Fin 5 → Ref sig .tc) k).ty.Contents Val) → y.ty.Contents Val) (hxs hy)
    (F : Valuation τ sig Val) :
    (StableHlo.nary (τ := τ) ![x, a, b, d, e] y f hxs hy).result F (Proc.devRef .tc y)
      = f (Fin.cons (F (Proc.devRef .tc x)) (Fin.cons (F (Proc.devRef .tc a)) (Fin.cons (F (Proc.devRef .tc b))
          (Fin.cons (F (Proc.devRef .tc d)) (Fin.cons (F (Proc.devRef .tc e)) (fun i => i.elim0)))))) := by
  rw [StableHlo.nary_result]
  exact congrArg f (funext fun k => by fin_cases k <;> rfl)

/-- The contents of one buffer after a line of operations, rewritten an operation at a time. -/
local macro "results5" : tactic =>
  `(tactic| (simp only [StableHlo.after_cons, StableHlo.after_nil]
             repeat (first
               | (rw [StableHlo.unary_result_ne]; rotate_left; decide)
               | rw [StableHlo.unary_result]
               | (rw [StableHlo.binary_result_ne]; rotate_left; decide)
               | (rw [StableHlo.reshape_result_ne]; rotate_left; decide)
               | (rw [StableHlo.nary_result_ne]; rotate_left; decide)
               | (rw [StableHlo.nullary_result_ne]; rotate_left; decide)
               | rw [StableHlo.binary_result]
               | rw [StableHlo.reshape_result]
               | rw [nary5_result])))

/-! ## The five columns of A1 -/

/-- The first layer's weight row as a vector. -/
abbrev w1c : FVec Ideal S128 .f32 := shapeCast S128 (a1 m c) shapeCasts_S1x128_S128
/-- A vector rounded to the short format. -/
abbrev hi (v : FVec Ideal S128 .f32) : FVec Ideal S128 .bf16 := truncf .bf16 v bitsLt_bf16_f32
/-- The remainder of that rounding, rounded. -/
abbrev lo (v : FVec Ideal S128 .f32) : FVec Ideal S128 .bf16 :=
  truncf .bf16 (subf v (extf .f32 (truncf .bf16 v bitsLt_bf16_f32) bitsLt_bf16_f32)) bitsLt_bf16_f32
/-- A vector as a one-column matrix. -/
abbrev col (v : FVec Ideal S128 .bf16) : FVec Ideal S128x1 .bf16 := broadcastInDim S128x1 ![0] bcast_S128_S128x1_0 v

set_option maxHeartbeats 4000000 in
/-- A1 is the five columns [w_hi, w_hi, w_lo, b_hi, b_lo] side by side. -/
theorem A1_eq : A1 m c = concatenate S128x5 1
      [⟨S128x1, col (hi (w1c m c))⟩, ⟨S128x1, col (hi (w1c m c))⟩, ⟨S128x1, col (lo (w1c m c))⟩,
        ⟨S128x1, col (hi (a2 m c))⟩, ⟨S128x1, col (lo (a2 m c))⟩]
      concatenates_S128x1_S128x1_S128x1_S128x1_S128x1_S128x5_d1 := by
  dsimp only [A1, V, V0]
  simp only [hostOps0, hostOps0_1, hostOps0_2, List.flatten_cons, List.flatten_nil, List.append_nil, List.cons_append, List.nil_append]
  results5
  rfl

/-- A one-column matrix read at row `j` is the vector at `j`. -/
theorem col_apply (v : FVec Ideal S128 .bf16) (j : Fin 128) : col v (ix2 j (0 : Fin 1)) = v (ix1 j) :=
  broadcastInDim_apply _ bcast_S128_S128x1_0 v (ix2 j (0 : Fin 1)) (ix1 j) (fun a => match a with
    | ⟨0, _⟩ => by show j.val = if (128 : Nat) = 1 then 0 else j.val; rw [if_neg (by decide)])

/-- The weight row as a vector, read at `j`. -/
theorem w1c_apply (j : Fin 128) : w1c m c (ix1 j) = a1 m c (ix2 (0 : Fin 1) j) :=
  shapeCast_1a_a_apply (a1 m c) shapeCasts_S1x128_S128 j

/-- The rounded vector at `j`: at the extended reals a change of format is the identity. -/
theorem hi_apply (v : FVec Ideal S128 .f32) (j : Fin 128) : hi v (ix1 j) = v (ix1 j) := rfl
/-- The rounded remainder at `j`. -/
theorem lo_apply (v : FVec Ideal S128 .f32) (j : Fin 128) : lo v (ix1 j) = v (ix1 j) - v (ix1 j) := rfl

/-- Five one-column matrices side by side, read at column `q`: piece `q` at its one column. -/
theorem cat_apply (xs : List ((s : Shape) × (s.Idx → Ideal .bf16))) (h : Shape.Concatenates (xs.map (·.1)) S128x5 1)
    (j : Fin 128) (q : Fin 5) (hq : q.val < xs.length) (x : S128x1.Idx → Ideal .bf16) (hx : xs[q.val] = ⟨S128x1, x⟩)
    (hpre : (((xs.take q.val).map (·.1)).map fun s => if h : s.rank = S128x5.rank then s.size ((1 : Fin S128x5.rank).cast h.symm) else 0).sum = q.val) :
    concatenate S128x5 1 xs h (ix2 j q) = x (ix2 j (0 : Fin 1)) :=
  concatenate_apply_piece 1 xs h (ix2 j q) q.val hq S128x1 x hx rfl q.val hpre (ix2 j (0 : Fin 1))
    (fun b hb => match b with | ⟨0, _⟩ => rfl | ⟨1, _⟩ => absurd rfl hb) rfl

/-! Column `q` of A1 at unit `j`. -/
theorem A1_0 (j : Fin 128) : A1 m c (ix2 j (0 : Fin 5)) = a1 m c (ix2 (0 : Fin 1) j) := by
  refine (congrFun (A1_eq m c) (ix2 j (0 : Fin 5))).trans ?_
  refine (cat_apply _ _ j (0 : Fin 5) (by show (0 : ℕ) < 5; omega) (col (hi (w1c m c))) rfl rfl).trans ?_
  exact (col_apply _ j).trans ((hi_apply _ j).trans (w1c_apply m c j))
theorem A1_1 (j : Fin 128) : A1 m c (ix2 j (1 : Fin 5)) = a1 m c (ix2 (0 : Fin 1) j) := by
  refine (congrFun (A1_eq m c) (ix2 j (1 : Fin 5))).trans ?_
  refine (cat_apply _ _ j (1 : Fin 5) (by show (1 : ℕ) < 5; omega) (col (hi (w1c m c))) rfl rfl).trans ?_
  exact (col_apply _ j).trans ((hi_apply _ j).trans (w1c_apply m c j))
theorem A1_2 (j : Fin 128) : A1 m c (ix2 j (2 : Fin 5)) = a1 m c (ix2 (0 : Fin 1) j) - a1 m c (ix2 (0 : Fin 1) j) := by
  refine (congrFun (A1_eq m c) (ix2 j (2 : Fin 5))).trans ?_
  refine (cat_apply _ _ j (2 : Fin 5) (by show (2 : ℕ) < 5; omega) (col (lo (w1c m c))) rfl rfl).trans ?_
  refine (col_apply _ j).trans ((lo_apply _ j).trans ?_)
  rw [w1c_apply m c j]
theorem A1_3 (j : Fin 128) : A1 m c (ix2 j (3 : Fin 5)) = a2 m c (ix1 j) := by
  refine (congrFun (A1_eq m c) (ix2 j (3 : Fin 5))).trans ?_
  refine (cat_apply _ _ j (3 : Fin 5) (by show (3 : ℕ) < 5; omega) (col (hi (a2 m c))) rfl rfl).trans ?_
  exact (col_apply _ j).trans (hi_apply _ j)
theorem A1_4 (j : Fin 128) : A1 m c (ix2 j (4 : Fin 5)) = a2 m c (ix1 j) - a2 m c (ix1 j) := by
  refine (congrFun (A1_eq m c) (ix2 j (4 : Fin 5))).trans ?_
  refine (cat_apply _ _ j (4 : Fin 5) (by show (4 : ℕ) < 5; omega) (col (lo (a2 m c))) rfl rfl).trans ?_
  exact (col_apply _ j).trans (lo_apply _ j)

/-! ## The transposed weights and the column biases -/

/-- W2t is the second layer's weights transposed. -/
theorem W2t_eq : W2t m c = truncf .bf16 (transpose S128x128 [1, 0] (a3 m c) transposes_S128x128_S128x128_1_0) bitsLt_bf16_f32 := by
  dsimp only [W2t, V, V0]
  simp only [hostOps0, hostOps0_1, hostOps0_2, List.flatten_cons, List.flatten_nil, List.append_nil, List.cons_append, List.nil_append]
  after_results

/-- W3t is the third layer's weights transposed. -/
theorem W3t_eq : W3t m c = truncf .bf16 (transpose S5x128 [1, 0] (a5 m c) transposes_S128x5_S5x128_1_0) bitsLt_bf16_f32 := by
  dsimp only [W3t, V, V0]
  simp only [hostOps0, hostOps0_1, hostOps0_2, List.flatten_cons, List.flatten_nil, List.append_nil, List.cons_append, List.nil_append]
  after_results

/-- B2c is the second layer's bias as a column. -/
theorem B2c_eq : B2c m c = shapeCast S128x1 (truncf .bf16 (a4 m c) bitsLt_bf16_f32) shapeCasts_S128_S128x1 := by
  dsimp only [B2c, V, V0]
  simp only [hostOps0, hostOps0_1, hostOps0_2, List.flatten_cons, List.flatten_nil, List.append_nil, List.cons_append, List.nil_append]
  after_results
  rfl

/-- B3c is the third layer's bias as a column. -/
theorem B3c_eq : B3c m c = shapeCast S5x1 (a6 m c) shapeCasts_S5_S5x1 := by
  dsimp only [B3c, V, V0]
  simp only [hostOps0, hostOps0_1, hostOps0_2, List.flatten_cons, List.flatten_nil, List.append_nil, List.cons_append, List.nil_append]
  after_results
  rfl

/-! The transposed weights and the column biases. -/
theorem W2t_apply (j k : Fin 128) : W2t m c (ix2 j k) = a3 m c (ix2 k j) := by
  refine (congrFun (W2t_eq m c) (ix2 j k)).trans ?_
  refine (truncf_apply (φ := .f32) (ψ := .bf16) (transpose S128x128 [1, 0] (a3 m c) transposes_S128x128_S128x128_1_0) bitsLt_bf16_f32 (ix2 j k)).trans ?_
  exact transpose_ix2_apply (a3 m c) transposes_S128x128_S128x128_1_0 j k
theorem B2c_apply (j : Fin 128) : B2c m c (ix2 j (0 : Fin 1)) = a4 m c (ix1 j) := by
  refine (congrFun (B2c_eq m c) (ix2 j (0 : Fin 1))).trans ?_
  refine (shapeCast_apply (truncf .bf16 (a4 m c) bitsLt_bf16_f32) shapeCasts_S128_S128x1 (ix2 j (0 : Fin 1)) (ix1 j) ?_).trans ?_
  · rw [Shape.rowMajor_val_one, Shape.rowMajor_val_two]
    show j.val = j.val * 1 + 0
    omega
  · exact truncf_apply (φ := .f32) (ψ := .bf16) (a4 m c) bitsLt_bf16_f32 (ix1 j)
theorem W3t_apply (e : Fin 5) (j : Fin 128) : W3t m c (ix2 e j) = a5 m c (ix2 j e) := by
  refine (congrFun (W3t_eq m c) (ix2 e j)).trans ?_
  refine (truncf_apply (φ := .f32) (ψ := .bf16) (transpose S5x128 [1, 0] (a5 m c) transposes_S128x5_S5x128_1_0) bitsLt_bf16_f32 (ix2 e j)).trans ?_
  exact transpose_ix2_apply (a5 m c) transposes_S128x5_S5x128_1_0 e j
theorem B3c_apply (e : Fin 5) : B3c m c (ix2 e (0 : Fin 1)) = a6 m c (ix1 e) := by
  refine (congrFun (B3c_eq m c) (ix2 e (0 : Fin 1))).trans ?_
  refine shapeCast_apply (a6 m c) shapeCasts_S5_S5x1 (ix2 e (0 : Fin 1)) (ix1 e) ?_
  rw [Shape.rowMajor_val_one, Shape.rowMajor_val_two]
  show e.val = e.val * 1 + 0
  omega

end Cert.KernelIdeal.Entry

end
-- ==== Proof.Spec.lean ====
/-
  The function both programs compute: a three-layer perceptron applied to each of the 100000 scalars `t n`,

    h1 n j = max (t n · W1 j + b1 j) 0
    h2 n j = max (Σ k, h1 n k · W2 k j + b2 j) 0
    out n e = Σ j, h2 n j · W3 j e + b3 e

  over the extended reals, and the arrangement of the first layer the kernel uses: a five-term product in which the
  scalar, the weight and the bias are each split into a leading part and a remainder (`x` and `x - x`), and the bias
  enters as a product with a constant one. On REAL numbers the remainders vanish and the five terms are `t · w + b`;
  at an infinite entry `x - x` is not zero, which is why the law is stated for reals only. The second and third
  layers differ between the two programs only in the order of the factors of each product.
-/
import Idealize.ShloMosaic.PureOps.Ideal

noncomputable section

open scoped BigOperators

namespace Cert.Mlp

/-- The first hidden layer at point `n`, unit `j`. -/
def h1 (t : Fin 100000 → EReal) (W1 b1 : Fin 128 → EReal) (n : Fin 100000) (j : Fin 128) : EReal :=
  max (t n * W1 j + b1 j) 0

/-- The second hidden layer. -/
def h2 (t : Fin 100000 → EReal) (W1 b1 : Fin 128 → EReal) (W2 : Fin 128 → Fin 128 → EReal) (b2 : Fin 128 → EReal)
    (n : Fin 100000) (j : Fin 128) : EReal :=
  max ((∑ k : Fin 128, h1 t W1 b1 n k * W2 k j) + b2 j) 0

/-- The five outputs at point `n`. -/
def out (t : Fin 100000 → EReal) (W1 b1 : Fin 128 → EReal) (W2 : Fin 128 → Fin 128 → EReal) (b2 : Fin 128 → EReal)
    (W3 : Fin 128 → Fin 5 → EReal) (b3 : Fin 5 → EReal) (n : Fin 100000) (e : Fin 5) : EReal :=
  (∑ j : Fin 128, h2 t W1 b1 W2 b2 n j * W3 j e) + b3 e

/-- The kernel's first layer: five products, the remainders `x - x` of the split written out, the bias times `one`. -/
def kh1 (one : EReal) (t : Fin 100000 → EReal) (W1 b1 : Fin 128 → EReal) (n : Fin 100000) (j : Fin 128) : EReal :=
  max (W1 j * t n + W1 j * (t n - t n) + (W1 j - W1 j) * t n + b1 j * one + (b1 j - b1 j) * one) 0

/-- The kernel's arrangement of the whole network: weights on the left of every product. -/
def kout (one : EReal) (t : Fin 100000 → EReal) (W1 b1 : Fin 128 → EReal) (W2 : Fin 128 → Fin 128 → EReal) (b2 : Fin 128 → EReal)
    (W3 : Fin 128 → Fin 5 → EReal) (b3 : Fin 5 → EReal) (n : Fin 100000) (e : Fin 5) : EReal :=
  (∑ j : Fin 128, W3 j e * max ((∑ k : Fin 128, W2 k j * kh1 one t W1 b1 n k) + b2 j) 0) + b3 e

/-- On real numbers the five-term first layer is `t · w + b`: the two remainders are zero. -/
theorem five_terms (t w b : ℝ) :
    (w : EReal) * t + w * ((t : EReal) - t) + ((w : EReal) - w) * t + (b : EReal) * 1 + ((b : EReal) - b) * 1 = (t : EReal) * w + b := by
  have ht : (t : EReal) - t = 0 := by rw [← EReal.coe_sub, sub_self, EReal.coe_zero]
  have hw : (w : EReal) - w = 0 := by rw [← EReal.coe_sub, sub_self, EReal.coe_zero]
  have hb : (b : EReal) - b = 0 := by rw [← EReal.coe_sub, sub_self, EReal.coe_zero]
  rw [ht, hw, hb, mul_zero, zero_mul, zero_mul, add_zero, add_zero, add_zero, mul_one, mul_comm]

/-- With `t`, `W1` and `b1` real and the constant one, the kernel's arrangement is the network. -/
theorem kout_eq_out (one : EReal) (hone : one = 1) (t : Fin 100000 → EReal) (W1 b1 : Fin 128 → EReal) (W2 : Fin 128 → Fin 128 → EReal)
    (b2 : Fin 128 → EReal) (W3 : Fin 128 → Fin 5 → EReal) (b3 : Fin 5 → EReal)
    (ht : ∀ n, ∃ r : ℝ, t n = r) (hW1 : ∀ j, ∃ r : ℝ, W1 j = r) (hb1 : ∀ j, ∃ r : ℝ, b1 j = r) (n : Fin 100000) (e : Fin 5) :
    kout one t W1 b1 W2 b2 W3 b3 n e = out t W1 b1 W2 b2 W3 b3 n e := by
  subst hone
  have hk : ∀ k, kh1 1 t W1 b1 n k = h1 t W1 b1 n k := by
    intro k
    obtain ⟨r, hr⟩ := ht n
    obtain ⟨w, hw⟩ := hW1 k
    obtain ⟨b, hb⟩ := hb1 k
    unfold kh1 h1
    rw [hr, hw, hb, five_terms]
  unfold kout out h2
  refine congrArg (fun x => x + b3 e) ?_
  refine Finset.sum_congr rfl (fun j _ => ?_)
  rw [mul_comm]
  refine congrArg (fun x => max (x + b2 j) 0 * W3 j e) ?_
  refine Finset.sum_congr rfl (fun k _ => ?_)
  rw [mul_comm, hk]

end Cert.Mlp

end
-- ==== Proof.KValue.lean ====
/-
  What the idealized kernel's result buffer holds after the run, as a function of the argument arrays.

  The output array of the region is written back block by block: grid point `t` writes columns
  `12800 t … 12800 t + 12799`, and no two points' blocks meet, so column `n` ends at what point `n / 12800` computed
  for its column `n % 12800`. That value is the body's arithmetic of the point's six input blocks: three matrix
  products, two rectifications, two bias additions. Block `t` of X is its columns under point `t`; the other five
  windows hold their whole arrays at every point. Reading the five rows of X and the five columns of A1 in terms of
  the arguments turns the first product into the five-term arrangement of `t · w + b`. After the region the result
  is the transpose of the first 100000 columns, so entry (n, e) of the result is entry (e, n) of the output array.
-/
import proofs.«144764_g64828236366229_cont_9to1_m_1379_9_alg».proof.Proof.FrameKernelIdeal
import proofs.«144764_g64828236366229_cont_9to1_m_1379_9_alg».proof.Proof.Payload
import proofs.«144764_g64828236366229_cont_9to1_m_1379_9_alg».proof.Proof.EntryX
import proofs.«144764_g64828236366229_cont_9to1_m_1379_9_alg».proof.Proof.EntryW
import proofs.«144764_g64828236366229_cont_9to1_m_1379_9_alg».proof.Proof.Spec
import Idealize.ShloMosaic.Lib.Pipeline.Value
import Idealize.ShloMosaic.Lib.ValueIdx

noncomputable section

open scoped BigOperators

namespace Cert.KernelIdeal.KValue

open Cert.KernelIdeal Cert.KernelIdeal.Gen Cert.KernelIdeal.FrameH Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem flushed6 (c : Dev nD) (t : Fin cfg0.N) :
    (dats m 0 c).flushed 6 t = (cfg0.win 6).cut (grid0.coords t)
      (k0_pay1 (iblk m c 0 t) (iblk m c 1 t) (iblk m c 2 t) (iblk m c 3 t) (iblk m c 4 t) (iblk m c 5 t)) := by
  show (cfg0.win 6).cut (grid0.coords t) ((dats m 0 c).after 6 t) = _
  rw [after0_6]
  unfold out0_6
  rw [View.canon_unit_zero hz]
  simp only [View.ld_unit_zero (S := S5x12800) hz, View.ld_unit_zero (S := S128x5) hz, View.ld_unit_zero (S := S128x128) hz,
    View.ld_unit_zero (S := S128x1) hz, View.ld_unit_zero (S := S5x128) hz, View.ld_unit_zero (S := S5x1) hz]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- The printed index maps over the eight grid points: the output window and the window of X move along the points,
    block `t` at point `t`; every other window stays on its one block. -/
theorem idx_facts : ∀ t : Fin cfg0.N,
    win0_6.index t (0 : Fin 2) = 0 ∧ win0_6.index t (1 : Fin 2) = t.val
    ∧ win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The six input blocks at point `t`, at their literal types. -/
abbrev b0 (c : Dev nD) (t : Fin cfg0.N) : FVec Ideal S5x12800 .bf16 := iblk m c 0 t
abbrev b1 (c : Dev nD) (t : Fin cfg0.N) : FVec Ideal S128x5 .bf16 := iblk m c 1 t
abbrev b2 (c : Dev nD) (t : Fin cfg0.N) : FVec Ideal S128x128 .bf16 := iblk m c 2 t
abbrev b3 (c : Dev nD) (t : Fin cfg0.N) : FVec Ideal S128x1 .bf16 := iblk m c 3 t
abbrev b4 (c : Dev nD) (t : Fin cfg0.N) : FVec Ideal S5x128 .bf16 := iblk m c 4 t
abbrev b5 (c : Dev nD) (t : Fin cfg0.N) : FVec Ideal S5x1 .f32 := iblk m c 5 t

/-- Column `n = 12800 t + p` of the output array ends at what point `t` computed for its column `p`. -/
theorem arr_at (c : Dev nD) (t : Fin cfg0.N) (e : Fin 5) (p : Fin 12800) (n : Fin 102400) (hn : n.val = t.val * 12800 + p.val) :
    (dats m 0 c).arrAt 6 cfg0.N (ix2 e n)
      = k0_pay1 (F := Ideal) (b0 m c t) (b1 m c t) (b2 m c t) (b3 m c t) (b4 m c t) (b5 m c t) (ix2 e p) := by
  obtain ⟨e0, e1, -⟩ := idx_facts t
  have hemb : ((cfg0.win 6).blk t).view.emb (ix2 e p) = ix2 e n := by
    funext a; apply Fin.ext
    match a with
    | ⟨0, _⟩ => show win0_6.index t (0 : Fin 2) * 5 + 1 * e.val = e.val; omega
    | ⟨1, _⟩ => show win0_6.index t (1 : Fin 2) * 12800 + 1 * p.val = n.val; omega
  have h := (dats m 0 c).arrAt_emb_eq_flushed 6 disjoint6 t (flush0_6 t) (ix2 e p)
  rw [hemb] at h
  rw [h, flushed6]
  rfl

/-- Block `t` of X is its columns `12800 t … 12800 t + 12799`. -/
theorem blk0 (c : Dev nD) (t : Fin cfg0.N) (q : Fin 5) (p : Fin 12800) (n : Fin 102400) (hn : n.val = t.val * 12800 + p.val) :
    b0 m c t (ix2 q p) = X m c (ix2 q n) := by
  obtain ⟨-, -, e0, e1, -⟩ := idx_facts t
  show X m c (((cfg0.win 0).blk t).view.emb (ix2 q p)) = X m c (ix2 q n)
  refine congrArg (X m c) (funext fun a => Fin.ext ?_)
  match a with
  | ⟨0, _⟩ => show win0_0.index t (0 : Fin 2) * 5 + 1 * q.val = q.val; omega
  | ⟨1, _⟩ => show win0_0.index t (1 : Fin 2) * 12800 + 1 * p.val = n.val; omega

/-- The other five windows hold their whole arrays at every point. -/
theorem blk1 (c : Dev nD) (t : Fin cfg0.N) (j : Fin 128) (q : Fin 5) : b1 m c t (ix2 j q) = A1 m c (ix2 j q) := by
  obtain ⟨-, -, -, -, e0, e1, -⟩ := idx_facts t
  show A1 m c (((cfg0.win 1).blk t).view.emb (ix2 j q)) = A1 m c (ix2 j q)
  refine congrArg (A1 m c) (funext fun a => Fin.ext ?_)
  match a with
  | ⟨0, _⟩ => show win0_1.index t (0 : Fin 2) * 128 + 1 * j.val = j.val; omega
  | ⟨1, _⟩ => show win0_1.index t (1 : Fin 2) * 5 + 1 * q.val = q.val; omega
theorem blk2 (c : Dev nD) (t : Fin cfg0.N) (j k : Fin 128) : b2 m c t (ix2 j k) = W2t m c (ix2 j k) := by
  obtain ⟨-, -, -, -, -, -, e0, e1, -⟩ := idx_facts t
  show W2t m c (((cfg0.win 2).blk t).view.emb (ix2 j k)) = W2t m c (ix2 j k)
  refine congrArg (W2t m c) (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega
theorem blk3 (c : Dev nD) (t : Fin cfg0.N) (j : Fin 128) (z : Fin 1) : b3 m c t (ix2 j z) = B2c m c (ix2 j z) := by
  obtain ⟨-, -, -, -, -, -, -, -, e0, e1, -⟩ := idx_facts t
  show B2c m c (((cfg0.win 3).blk t).view.emb (ix2 j z)) = B2c m c (ix2 j z)
  refine congrArg (B2c m c) (funext fun a => Fin.ext ?_)
  match a with
  | ⟨0, _⟩ => show win0_3.index t (0 : Fin 2) * 128 + 1 * j.val = j.val; omega
  | ⟨1, _⟩ => show win0_3.index t (1 : Fin 2) * 1 + 1 * z.val = z.val; omega
theorem blk4 (c : Dev nD) (t : Fin cfg0.N) (e : Fin 5) (j : Fin 128) : b4 m c t (ix2 e j) = W3t m c (ix2 e j) := by
  obtain ⟨-, -, -, -, -, -, -, -, -, -, e0, e1, -⟩ := idx_facts t
  show W3t m c (((cfg0.win 4).blk t).view.emb (ix2 e j)) = W3t m c (ix2 e j)
  refine congrArg (W3t m c) (funext fun a => Fin.ext ?_)
  match a with
  | ⟨0, _⟩ => show win0_4.index t (0 : Fin 2) * 5 + 1 * e.val = e.val; omega
  | ⟨1, _⟩ => show win0_4.index t (1 : Fin 2) * 128 + 1 * j.val = j.val; omega
theorem blk5 (c : Dev nD) (t : Fin cfg0.N) (e : Fin 5) (z : Fin 1) : b5 m c t (ix2 e z) = B3c m c (ix2 e z) := by
  obtain ⟨-, -, -, -, -, -, -, -, -, -, -, -, e0, e1⟩ := idx_facts t
  show B3c m c (((cfg0.win 5).blk t).view.emb (ix2 e z)) = B3c m c (ix2 e z)
  refine congrArg (B3c m c) (funext fun a => Fin.ext ?_)
  match a with
  | ⟨0, _⟩ => show win0_5.index t (0 : Fin 2) * 5 + 1 * e.val = e.val; omega
  | ⟨1, _⟩ => show win0_5.index t (1 : Fin 2) * 1 + 1 * z.val = z.val; omega

/-- The first layer's five products at point `n`, hidden unit `k`, in terms of the arguments. -/
theorem five (c : Dev nD) (t : Fin cfg0.N) (p : Fin 12800) (n : Fin 100000) (hn : n.val = t.val * 12800 + p.val) (k : Fin 128) :
    (∑ q : Fin 5, b1 m c t (ix2 k q) * b0 m c t (ix2 q p))
      = a1 m c (ix2 (0 : Fin 1) k) * a0 m c (ix1 n) + a1 m c (ix2 (0 : Fin 1) k) * (a0 m c (ix1 n) - a0 m c (ix1 n))
        + (a1 m c (ix2 (0 : Fin 1) k) - a1 m c (ix2 (0 : Fin 1) k)) * a0 m c (ix1 n) + a2 m c (ix1 k) * one
        + (a2 m c (ix1 k) - a2 m c (ix1 k)) * one := by
  have hlt : n.val < 102400 := by have := n.isLt; omega
  rw [Fin.sum_univ_five, blk1 m c t k 0, blk1 m c t k 1, blk1 m c t k 2, blk1 m c t k 3, blk1 m c t k 4,
    blk0 m c t 0 p ⟨n.val, hlt⟩ hn, blk0 m c t 1 p ⟨n.val, hlt⟩ hn, blk0 m c t 2 p ⟨n.val, hlt⟩ hn,
    blk0 m c t 3 p ⟨n.val, hlt⟩ hn, blk0 m c t 4 p ⟨n.val, hlt⟩ hn,
    X_0 m c n hlt, X_1 m c n hlt, X_2 m c n hlt, X_3 m c n hlt, X_4 m c n hlt,
    A1_0 m c k, A1_1 m c k, A1_2 m c k, A1_3 m c k, A1_4 m c k]

/-- THE OUTPUT ARRAY at row `e`, column `n < 100000`: the kernel's arrangement of the network of the arguments. -/
theorem arr_apply (c : Dev nD) (e : Fin 5) (n : Fin 100000) (hlt : n.val < 102400) :
    (dats m 0 c).arrAt 6 cfg0.N (ix2 e (⟨n.val, hlt⟩ : Fin 102400))
      = Cert.Mlp.kout one (fun n => a0 m c (ix1 n)) (fun j => a1 m c (ix2 (0 : Fin 1) j)) (fun j => a2 m c (ix1 j))
          (fun k j => a3 m c (ix2 k j)) (fun j => a4 m c (ix1 j)) (fun j e => a5 m c (ix2 j e)) (fun e => a6 m c (ix1 e)) n e := by
  have hN : cfg0.N = 8 := N_0
  have hn8 : n.val / 12800 < cfg0.N := by rw [hN]; have := n.isLt; omega
  have hp : n.val % 12800 < 12800 := Nat.mod_lt _ (by decide)
  have hn : n.val = (⟨n.val / 12800, hn8⟩ : Fin cfg0.N).val * 12800 + (⟨n.val % 12800, hp⟩ : Fin 12800).val := by
    show n.val = n.val / 12800 * 12800 + n.val % 12800; omega
  rw [arr_at m c ⟨n.val / 12800, hn8⟩ e ⟨n.val % 12800, hp⟩ ⟨n.val, hlt⟩ hn]
  refine (Cert.KernelIdeal.Payload.pay_apply (b0 m c ⟨n.val / 12800, hn8⟩) (b1 m c ⟨n.val / 12800, hn8⟩) (b2 m c ⟨n.val / 12800, hn8⟩) (b3 m c ⟨n.val / 12800, hn8⟩) (b4 m c ⟨n.val / 12800, hn8⟩) (b5 m c ⟨n.val / 12800, hn8⟩) e ⟨n.val % 12800, hp⟩).trans ?_
  unfold Cert.Mlp.kout Cert.Mlp.kh1
  rw [blk5 m c _ e 0, B3c_apply m c e]
  refine congrArg (· + a6 m c (ix1 e)) (Finset.sum_congr rfl fun j _ => ?_)
  rw [blk4 m c _ e j, W3t_apply m c e j, blk3 m c _ j 0, B2c_apply m c j]
  refine congrArg (fun s => a5 m c (ix2 j e) * max (s + a4 m c (ix1 j)) 0) (Finset.sum_congr rfl fun k _ => ?_)
  rw [blk2 m c _ j k, W2t_apply m c j k, five m c ⟨n.val / 12800, hn8⟩ ⟨n.val % 12800, hp⟩ n hn k]

/-- A transpose of a slice, read at row `n`, column `e`: the array at row `e`, column `n`. -/
theorem transpose_slice_apply {α : Type} (A : S5x102400.Idx → α) (n : Fin 100000) (e : Fin 5) (hlt : n.val < 102400) :
    transpose S100000x5 [1, 0] (extractStridedSlice S5x100000 ![0, 0] A slices_S5x102400_S5x100000_0_0) transposes_S5x100000_S100000x5_1_0 (ix2 n e)
      = A (ix2 e (⟨n.val, hlt⟩ : Fin 102400)) := by
  refine (transpose_apply [1, 0] _ transposes_S5x100000_S100000x5_1_0 (ix2 n e) (ix2 e n) (fun b => ?_)).trans ?_
  · match b with
    | ⟨0, _⟩ => rfl
    | ⟨1, _⟩ => rfl
  · refine extractStridedSlice_apply ![0, 0] A slices_S5x102400_S5x100000_0_0 (ix2 e n) (ix2 e ⟨n.val, hlt⟩) (fun a => ?_)
    match a with
    | ⟨0, _⟩ => show e.val = 0 + e.val; omega
    | ⟨1, _⟩ => show n.val = 0 + n.val; omega

/-- The result buffer after the two closing operations: the transpose of the slice of the output array. -/
theorem tail_eq (c : Dev nD) :
    Pipeline.afterTail₀ cfgs (dats m) 0 (V0 m) [hostOps1] c main_v36
      = transpose S100000x5 [1, 0] (extractStridedSlice S5x100000 ![0, 0] ((dats m 0 c).arrAt 6 cfg0.N) slices_S5x102400_S5x100000_0_0) transposes_S5x100000_S100000x5_1_0 := by
  unfold Pipeline.afterTail₀
  show StableHlo.after hostOps1 _ (Proc.devRef .tc main_v36) = _
  after_results
  exact congrArg (fun A : S5x102400.Idx → EReal => transpose S100000x5 [1, 0] (extractStridedSlice S5x100000 ![0, 0] A slices_S5x102400_S5x100000_0_0) transposes_S5x100000_S100000x5_1_0)
    (Pipeline.withArrays_arr (cfgs 0).spec launch0.win.arr_inj c (V0 m c) (fun w => (dats m 0 c).arrAt w (cfgs 0).N) 6)

/-- The run, with the result named: after every weakly fair execution the result buffer holds the transpose of the
    slice of the output array, and the arguments are as launched. -/
theorem run_value : θ_run defs (onTc (τ := τ) (main (F := Ideal))) ⟨m, fun _ => 0, ρ⟩ fun r => ∀ c : Dev nD,
      r.2.mem ((c.tc : Thread nD τ).loc main_v36)
        = transpose S100000x5 [1, 0] (extractStridedSlice S5x100000 ![0, 0] ((dats m 0 c).arrAt 6 cfg0.N) slices_S5x102400_S5x100000_0_0) transposes_S5x100000_S100000x5_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefIsSpec.lean ====
/-
  The reference read operation by operation: its result at point n and output e is the three-layer network of its
  arguments, layer by layer (a product with a one-column matrix is a one-term sum; the rectification is max(·, 0)).
-/
import proofs.«144764_g64828236366229_cont_9to1_m_1379_9_alg».proof.Proof.Gen.ReferenceIdeal.Read
import proofs.«144764_g64828236366229_cont_9to1_m_1379_9_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The first hidden layer of the reference, read at point `n` and unit `j`. -/
theorem ref_h1 (x0 : (⟨S100000, .f32⟩ : BufTy).Contents (Elt Ideal)) (x1 : (⟨S1x128, .f32⟩ : BufTy).Contents (Elt Ideal))
    (x2 : (⟨S128, .f32⟩ : BufTy).Contents (Elt Ideal)) (n : Fin 100000) (j : Fin 128) :
    val_main_v5 (F := Ideal) x0 x1 x2 (ix2 n j) =
      Cert.Mlp.h1 (fun n => x0 (ix1 n)) (fun j => x1 (ix2 (0 : Fin 1) j)) (fun j => x2 (ix1 j)) n j := by
  rw [val_main_v5_apply, val_main_v4_apply, val_main_v1_apply, Fin.sum_univ_one, val_main_v0_apply, val_main_v3_apply,
    val_main_v2_apply, val_main_call0_v0_apply, val_main_call0_cst_apply, Ideal.ofBits_def, Ideal.ofBits_zero_f32,
    Ideal.addf_def, Ideal.maximumf_def]
  have e0 : idx_main_v0 (lidx_main_v1 (ix2 n j) (0 : Fin 1)) = ix1 n :=
    funext fun a => Fin.ext (by match a with | ⟨0, _⟩ => rfl)
  have e1 : ridx_main_v1 (ix2 n j) (0 : Fin 1) = ix2 (0 : Fin 1) j :=
    funext fun a => Fin.ext (by match a with | ⟨0, _⟩ => rfl | ⟨1, _⟩ => rfl)
  have e2 : idx_main_v2 (idx_main_v3 (ix2 n j)) = ix1 j :=
    funext fun a => Fin.ext (by match a with | ⟨0, _⟩ => rfl)
  rw [e0, e1, e2]
  rfl

/-- The second hidden layer of the reference, read at point `n` and unit `j`. -/
theorem ref_h2 (x0 : (⟨S100000, .f32⟩ : BufTy).Contents (Elt Ideal)) (x1 : (⟨S1x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (n : Fin 100000) (j : Fin 128) :
    val_main_v10 (F := Ideal) x0 x1 x2 x3 x4 (ix2 n j) =
      Cert.Mlp.h2 (fun n => x0 (ix1 n)) (fun j => x1 (ix2 (0 : Fin 1) j)) (fun j => x2 (ix1 j)) (fun k j => x3 (ix2 k j))
        (fun j => x4 (ix1 j)) n j := by
  rw [val_main_v10_apply, val_main_v9_apply, val_main_v6_apply, val_main_v8_apply, val_main_v7_apply,
    val_main_call1_v0_apply, val_main_call1_cst_apply, Ideal.ofBits_def, Ideal.ofBits_zero_f32,
    Ideal.addf_def, Ideal.maximumf_def]
  have e2 : idx_main_v7 (idx_main_v8 (ix2 n j)) = ix1 j :=
    funext fun a => Fin.ext (by match a with | ⟨0, _⟩ => rfl)
  have es : ∀ k : Fin 128, val_main_v5 (F := Ideal) x0 x1 x2 (lidx_main_v6 (ix2 n j) k) * x3 (ridx_main_v6 (ix2 n j) k) =
      Cert.Mlp.h1 (fun n => x0 (ix1 n)) (fun j => x1 (ix2 (0 : Fin 1) j)) (fun j => x2 (ix1 j)) n k * x3 (ix2 k j) := by
    intro k
    have el : lidx_main_v6 (ix2 n j) k = ix2 n k :=
      funext fun a => Fin.ext (by match a with | ⟨0, _⟩ => rfl | ⟨1, _⟩ => rfl)
    have er : ridx_main_v6 (ix2 n j) k = ix2 k j :=
      funext fun a => Fin.ext (by match a with | ⟨0, _⟩ => rfl | ⟨1, _⟩ => rfl)
    rw [el, er, ref_h1]
  rw [e2, Finset.sum_congr rfl fun k _ => es k]
  rfl

/-- The reference's result, read at point `n` and output `e`, is the network of its arguments. -/
theorem ref_is_out (x0 : (⟨S100000, .f32⟩ : BufTy).Contents (Elt Ideal)) (x1 : (⟨S1x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x5, .f32⟩ : BufTy).Contents (Elt Ideal))
    (x6 : (⟨S5, .f32⟩ : BufTy).Contents (Elt Ideal)) (n : Fin 100000) (e : Fin 5) :
    val_main_v14 (F := Ideal) x0 x1 x2 x3 x4 x5 x6 (ix2 n e) =
      Cert.Mlp.out (fun n => x0 (ix1 n)) (fun j => x1 (ix2 (0 : Fin 1) j)) (fun j => x2 (ix1 j)) (fun k j => x3 (ix2 k j))
        (fun j => x4 (ix1 j)) (fun j e => x5 (ix2 j e)) (fun e => x6 (ix1 e)) n e := by
  rw [val_main_v14_apply, val_main_v11_apply, val_main_v13_apply, val_main_v12_apply, Ideal.addf_def]
  have e2 : idx_main_v12 (idx_main_v13 (ix2 n e)) = ix1 e :=
    funext fun a => Fin.ext (by match a with | ⟨0, _⟩ => rfl)
  have es : ∀ k : Fin 128, val_main_v10 (F := Ideal) x0 x1 x2 x3 x4 (lidx_main_v11 (ix2 n e) k) * x5 (ridx_main_v11 (ix2 n e) k) =
      Cert.Mlp.h2 (fun n => x0 (ix1 n)) (fun j => x1 (ix2 (0 : Fin 1) j)) (fun j => x2 (ix1 j)) (fun k j => x3 (ix2 k j))
        (fun j => x4 (ix1 j)) n k * x5 (ix2 k e) := by
    intro k
    have el : lidx_main_v11 (ix2 n e) k = ix2 n k :=
      funext fun a => Fin.ext (by match a with | ⟨0, _⟩ => rfl | ⟨1, _⟩ => rfl)
    have er : ridx_main_v11 (ix2 n e) k = ix2 k e :=
      funext fun a => Fin.ext (by match a with | ⟨0, _⟩ => rfl | ⟨1, _⟩ => rfl)
    rw [el, er, ref_h2]
  rw [e2, Finset.sum_congr rfl fun k _ => es k]
  rfl

end Cert.ReferenceIdeal.RefValue

end
-- ==== Proof.Finite.lean ====
/-
  What the precondition gives: it is the conjunction, over the seven inputs, of "every entry's absolute value is below
  +∞"; an extended real with that property is a real number. Read here for the three inputs the first layer uses.
-/
import proofs.«144764_g64828236366229_cont_9to1_m_1379_9_alg».proof.Pre_finite_inputs
import proofs.«144764_g64828236366229_cont_9to1_m_1379_9_alg».proof.Proof.Gen.Pre_finite_inputs
import Idealize.ShloMosaic.Lib.ValueIdx
import Idealize.ShloMosaic.Lib.ReduceAll

noncomputable section

namespace Cert.Finite

open Idealize.ShloMosaic Idealize.ShloMosaic.ValueIdx

/-- The rank-0 shape has one index. -/
instance subsingleton_S_ : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max a (-a) is below +∞ is a real number. -/
theorem real_of_abs_lt (a : EReal) (h : max a (-a) < ⊤) : ∃ r : ℝ, a = (r : EReal) := by
  induction a using EReal.rec with
  | bot => simp at h
  | coe r => exact ⟨r, rfl⟩
  | top => simp at h

/-- One entry of the comparison |x| < +∞ being 1 says the entry of x is a real number. -/
theorem entry_real {s : Shape} (bc : Cert.Pre_finite_inputs.S_.BroadcastsInDim s (![] : Fin 0 → Fin s.rank))
    (x : FVec Ideal s .f32) (i : s.Idx)
    (h : cmpf .olt (Host.absf x) (broadcastInDim s ![] bc (constant (F := Ideal) Cert.Pre_finite_inputs.S_ .f32 0x7F800000#32)) i = 1#1) :
    ∃ r : ℝ, x i = (r : EReal) := by
  have e : cmpf .olt (Host.absf x) (broadcastInDim s ![] bc (constant (F := Ideal) Cert.Pre_finite_inputs.S_ .f32 0x7F800000#32)) i
      = Ideal.cmp .olt (max (x i) (-(x i))) (Ideal.ofBits .f32 0x7F800000#32) := rfl
  rw [e, inf_word] at h
  refine real_of_abs_lt (x i) ?_
  unfold Ideal.cmp at h
  by_contra hc
  simp [hc] at h

/-- The precondition says every entry of the scalars, of the first weight row and of the first bias is a real number. -/
theorem reals_of_pre [hP : Cert.Pre_finite_inputs.Facts]
    (x0 : FVec Ideal Cert.Pre_finite_inputs.S100000 .f32) (x1 : FVec Ideal Cert.Pre_finite_inputs.S1x128 .f32) (x2 : FVec Ideal Cert.Pre_finite_inputs.S128 .f32)
    (x3 : FVec Ideal Cert.Pre_finite_inputs.S128x128 .f32) (x4 : FVec Ideal Cert.Pre_finite_inputs.S128 .f32) (x5 : FVec Ideal Cert.Pre_finite_inputs.S128x5 .f32) (x6 : FVec Ideal Cert.Pre_finite_inputs.S5 .f32)
    (h : Cert.Pre_finite_inputs.fn (F := Ideal) x0 x1 x2 x3 x4 x5 x6 = (fun _ => 1#1)) :
    (∀ n : Fin 100000, ∃ r : ℝ, x0 (ix1 n) = (r : EReal)) ∧ (∀ j : Fin 128, ∃ r : ℝ, x1 (ix2 (0 : Fin 1) j) = (r : EReal)) ∧ (∀ j : Fin 128, ∃ r : ℝ, x2 (ix1 j) = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, hx2⟩ := IntOp.andi_eq_one.1 h4
  obtain ⟨hx0, hx1⟩ := IntOp.andi_eq_one.1 h5
  refine ⟨fun n => ?_, fun j => ?_, fun j => ?_⟩
  · exact entry_real _ x0 (ix1 n) (Host.reduce_andi_all _ _ _ _ _ hx0 (ix1 n))
  · exact entry_real _ x1 (ix2 (0 : Fin 1) j) (Host.reduce_andi_all _ _ _ _ _ hx1 (ix2 (0 : Fin 1) j))
  · exact entry_real _ x2 (ix1 j) (Host.reduce_andi_all _ _ _ _ _ hx2 (ix1 j))

end Cert.Finite

end
-- ==== Proof.lean ====
/-
  The certificate: a fused three-layer perceptron over 100000 scalars against its plain reference.

  Both programs compute, at point `n` and output `e`,
      out n e = Σ j, max (Σ k, max (t n · W1 k + b1 k) 0 · W2 k j + b2 j) 0 · W3 j e + b3 e
  over the extended reals. The kernel works in the transposed layout (points along the columns), pads the points to
  102400 and slices the padding away at the end, and writes its first layer as ONE product of five terms: the scalar,
  the weight and the bias are each split into a leading part and the remainder `x - x`, and the bias enters as a
  product with a constant one. A change of float format is the identity on the extended reals, so the remainders
  are `x - x`, which is zero exactly when `x` is a real number: that is where the precondition (every input finite)
  is used, and the only place. The second and third layers agree term by term up to the order of the factors.

  The three frames: each kernel program's by the launch theorem for one region between host operations (the body
  loads its blocks, stores one value over the whole output block), the reference's by its run.
-/
import proofs.«144764_g64828236366229_cont_9to1_m_1379_9_alg».proof.Defs
import proofs.«144764_g64828236366229_cont_9to1_m_1379_9_alg».proof.Proof.Gen.Kernel
import proofs.«144764_g64828236366229_cont_9to1_m_1379_9_alg».proof.Proof.Gen.KernelIdeal
import proofs.«144764_g64828236366229_cont_9to1_m_1379_9_alg».proof.Proof.Gen.ReferenceIdeal
import proofs.«144764_g64828236366229_cont_9to1_m_1379_9_alg».proof.Proof.Gen.Pre_finite_inputs
import proofs.«144764_g64828236366229_cont_9to1_m_1379_9_alg».proof.Proof.Gen.ReferenceIdeal.Run
import proofs.«144764_g64828236366229_cont_9to1_m_1379_9_alg».proof.Proof.Gen.ReferenceIdeal.Read
import proofs.«144764_g64828236366229_cont_9to1_m_1379_9_alg».proof.Proof.FrameKernel
import proofs.«144764_g64828236366229_cont_9to1_m_1379_9_alg».proof.Proof.FrameKernelIdeal
import proofs.«144764_g64828236366229_cont_9to1_m_1379_9_alg».proof.Proof.KValue
import proofs.«144764_g64828236366229_cont_9to1_m_1379_9_alg».proof.Proof.RefIsSpec
import proofs.«144764_g64828236366229_cont_9to1_m_1379_9_alg».proof.Proof.Finite
import proofs.«144764_g64828236366229_cont_9to1_m_1379_9_alg».proof.Proof.Spec
import Idealize.ShloMosaic.Adequacy
import Idealize.ShloMosaic.Init

noncomputable section

namespace Cert.Proof

open Idealize.ShloMosaic Idealize.SL.Sem Idealize.ShloMosaic.ValueIdx

/-- The network of seven argument arrays, as an array of shape [100000, 5]. -/
def net (x0 : FVec Ideal Cert.KernelIdeal.S100000 .f32) (x1 : FVec Ideal Cert.KernelIdeal.S1x128 .f32) (x2 : FVec Ideal Cert.KernelIdeal.S128 .f32)
    (x3 : FVec Ideal Cert.KernelIdeal.S128x128 .f32) (x4 : FVec Ideal Cert.KernelIdeal.S128 .f32) (x5 : FVec Ideal Cert.KernelIdeal.S128x5 .f32)
    (x6 : FVec Ideal Cert.KernelIdeal.S5 .f32) : FVec Ideal Cert.KernelIdeal.S100000x5 .f32 := fun i =>
  Cert.Mlp.out (fun n => x0 (ix1 n)) (fun j => x1 (ix2 (0 : Fin 1) j)) (fun j => x2 (ix1 j)) (fun k j => x3 (ix2 k j))
    (fun j => x4 (ix1 j)) (fun j e => x5 (ix2 j e)) (fun e => x6 (ix1 e)) ⟨(i 0).val, (i 0).isLt⟩ ⟨(i 1).val, (i 1).isLt⟩

theorem frame_k : Cert.frame_Kernel := fun m ρ _ => Cert.Kernel.FrameH.frame m ρ
theorem frame_ki : Cert.frame_KernelIdeal := fun m ρ _ => Cert.KernelIdeal.FrameH.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the network of the arguments in their result
    buffers: the kernel's by its run read column by column and the five-term law on real entries, the reference's by
    its run read operation by operation. -/
theorem algebraic : Cert.algebraic_KernelIdeal_ReferenceIdeal := by
  intro m ρ m' ρ' hpre hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KValue.run_value m ρ)
    funext i
    obtain ⟨n, e, rfl⟩ : ∃ (n : Fin 100000) (e : Fin 5), i = ix2 n e := ⟨i 0, i 1, eq_ix2 i⟩
    have hlt : n.val < 102400 := by have := n.isLt; omega
    obtain ⟨ht, hW1, hb1⟩ := Cert.Finite.reals_of_pre _ _ _ _ _ _ _ (hpre c)
    rw [Cert.KernelIdeal.KValue.transpose_slice_apply _ n e hlt, Cert.KernelIdeal.KValue.arr_apply m c e n hlt]
    exact Cert.Mlp.kout_eq_out _ Cert.KernelIdeal.Entry.one_eq _ _ _ _ _ _ _ ht hW1 hb1 n e
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, (hagree c).1, (hagree c).2.1, (hagree c).2.2.1, (hagree c).2.2.2.1,
      (hagree c).2.2.2.2.1, (hagree c).2.2.2.2.2.1, (hagree c).2.2.2.2.2.2]
    funext i
    obtain ⟨n, e, rfl⟩ : ∃ (n : Fin 100000) (e : Fin 5), i = ix2 n e := ⟨i 0, i 1, eq_ix2 i⟩
    exact Cert.ReferenceIdeal.RefValue.ref_is_out _ _ _ _ _ _ _ n e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
